-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x200 : Shape := ⟨2, ![64, 200]⟩
abbrev S100000x64 : Shape := ⟨2, ![100000, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S2x600000 : Shape := ⟨2, ![2, 600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x200 : S_.BroadcastsInDim S64x200 (![] : Fin 0 → Fin S64x200.rank)
  reducesTo_S64x200_S_d0_1 : S64x200.ReducesTo [0, 1] S_

variable [Facts]

def fn_part1 {F : FTy → Type} [FloatOps F] (main_arg0 : IVec S64x200 32) (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_c_8 : IVec S_ 32 := constantI S_ 32 0#32
  let main_v24 : IVec S64x200 32 := broadcastInDim S64x200 ![] bcast_S_S64x200 main_c_8
  let main_v25 : IVec S64x200 1 := cmpi .sge main_arg0 main_v24
  let main_c_9 : IVec S_ 1 := constantI S_ 1 1#1
  let main_v26 : IVec S_ 1 := (fun x v => Host.reduce IntOp.andi x v reducesTo_S64x200_S_d0_1 h_S_) main_v25 main_c_9
  let main_v27 : IVec S_ 1 := andi main_v23 main_v26
  let main_c_10 : IVec S_ 32 := constantI S_ 32 100000#32
  let main_v28 : IVec S64x200 32 := broadcastInDim S64x200 ![] bcast_S_S64x200 main_c_10
  let main_v29 : IVec S64x200 1 := cmpi .slt main_arg0 main_v28
  let main_c_11 : IVec S_ 1 := constantI S_ 1 1#1
  let main_v30 : IVec S_ 1 := (fun x v => Host.reduce IntOp.andi x v reducesTo_S64x200_S_d0_1 h_S_) main_v29 main_c_11
  let main_v31 : IVec S_ 1 := andi main_v27 main_v30
  main_v31

def fn {F : FTy → Type} [FloatOps F] (main_arg0 : IVec S64x200 32) (main_arg1 : FVec F S100000x64 .f32) (main_arg2 : FVec F S64x128 .f32) (main_arg3 : FVec F S128 .f32) (main_arg4 : FVec F S128x64 .f32) (main_arg5 : FVec F S64 .f32) (main_arg6 : IVec S2x600000 32) : IVec S_ 1 :=
  let main_v0 : FVec F S100000x64 .f32 := Host.absf main_arg1
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg0 main_arg5 main_v13 main_v16
-- ==== Kernel.lean ====
abbrev S64x200 : Shape := ⟨2, ![64, 200]⟩
abbrev S100000x64 : Shape := ⟨2, ![100000, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S2x600000 : Shape := ⟨2, ![2, 600000]⟩
abbrev S100000x128 : Shape := ⟨2, ![100000, 128]⟩
abbrev S5000x64 : Shape := ⟨2, ![5000, 64]⟩
abbrev S5000x128 : Shape := ⟨2, ![5000, 128]⟩
abbrev S1x600000 : Shape := ⟨2, ![1, 600000]⟩
abbrev S600000 : Shape := ⟨1, ![600000]⟩
abbrev S100000 : Shape := ⟨1, ![100000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S1x128 : Shape := ⟨2, ![1, 128]⟩
abbrev S700000x64 : Shape := ⟨2, ![700000, 64]⟩
abbrev S1x64 : Shape := ⟨2, ![1, 64]⟩
abbrev S12800x1 : Shape := ⟨2, ![12800, 1]⟩
abbrev S12800x64 : Shape := ⟨2, ![12800, 64]⟩
abbrev S3200x1 : Shape := ⟨2, ![3200, 1]⟩
abbrev S2000x64 : Shape := ⟨2, ![2000, 64]⟩
abbrev S3200x64 : Shape := ⟨2, ![3200, 64]⟩
abbrev S3200x2000 : Shape := ⟨2, ![3200, 2000]⟩
abbrev S64x200x64 : Shape := ⟨3, ![64, 200, 64]⟩

abbrev nBuf : Space → Nat
  | .hbm => 134
  | .vmem => 16
  | .smem => 0
  | _ => 0

abbrev hbmTy0_0 (i : Nat) : BufTy := match i % 128 with
  | 0 => ⟨S64x200, .i32⟩
  | 1 => ⟨S100000x64, .f32⟩
  | 2 => ⟨S64x128, .f32⟩
  | 3 => ⟨S128, .f32⟩
  | 4 => ⟨S128x64, .f32⟩
  | 5 => ⟨S64, .f32⟩
  | 6 => ⟨S2x600000, .i32⟩
  | 7 => ⟨S100000x128, .f32⟩
  | 8 => ⟨S1x600000, .i32⟩
  | 9 => ⟨S600000, .i32⟩
  | 10 => ⟨S1x600000, .i32⟩
  | 11 => ⟨S600000, .i32⟩
  | 12 => ⟨S100000, .i32⟩
  | 13 => ⟨S700000, .i32⟩
  | 14 => ⟨S700000, .i32⟩
  | 15 => ⟨S_, .f32⟩
  | 16 => ⟨S700000, .f32⟩
  | 17 => ⟨S_, .f32⟩
  | 18 => ⟨S100000, .f32⟩
  | 19 => ⟨S700000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S700000, .i32⟩
  | 33 => ⟨S700000, .i1⟩
  | 34 => ⟨S_, .i32⟩
  | 35 => ⟨S700000, .i32⟩
  | 36 => ⟨S700000, .i32⟩
  | 37 => ⟨S700000, .i32⟩
  | 38 => ⟨S700000x1, .i32⟩
  | 39 => ⟨S700000, .f32⟩
  | 40 => ⟨S_, .i32⟩
  | 41 => ⟨S700000, .i32⟩
  | 42 => ⟨S700000, .i1⟩
  | 43 => ⟨S_, .i32⟩
  | 44 => ⟨S700000, .i32⟩
  | 45 => ⟨S700000, .i32⟩
  | 46 => ⟨S700000, .i32⟩
  | 47 => ⟨S700000x1, .i32⟩
  | 48 => ⟨S700000, .f32⟩
  | 49 => ⟨S700000, .f32⟩
  | 50 => ⟨S_, .i32⟩
  | 51 => ⟨S700000, .i32⟩
  | 52 => ⟨S700000, .i1⟩
  | 53 => ⟨S_, .i32⟩
  | 54 => ⟨S700000, .i32⟩
  | 55 => ⟨S700000, .i32⟩
  | 56 => ⟨S700000, .i32⟩
  | 57 => ⟨S700000x1, .i32⟩
  | 58 => ⟨S700000x128, .f32⟩
  | 59 => ⟨S700000x1, .f32⟩
  | 60 => ⟨S700000x128, .f32⟩
  | 61 => ⟨S700000x128, .f32⟩
  | 62 => ⟨S_, .f32⟩
  | 63 => ⟨S100000x128, .f32⟩
  | 64 => ⟨S700000x1, .i32⟩
  | 65 => ⟨S100000x128, .f32⟩
  | 66 => ⟨S1x128, .f32⟩
  | 67 => ⟨S100000x128, .f32⟩
  | 68 => ⟨S100000x128, .f32⟩
  | 69 => ⟨S100000x64, .f32⟩
  | 70 => ⟨S1x600000, .i32⟩
  | 71 => ⟨S600000, .i32⟩
  | 72 => ⟨S1x600000, .i32⟩
  | 73 => ⟨S600000, .i32⟩
  | 74 => ⟨S100000, .i32⟩
  | 75 => ⟨S700000, .i32⟩
  | 76 => ⟨S700000, .i32⟩
  | 77 => ⟨S_, .f32⟩
  | 78 => ⟨S700000, .f32⟩
  | 79 => ⟨S_, .f32⟩
  | 80 => ⟨S100000, .f32⟩
  | 81 => ⟨S700000x1, .i32⟩
  | 82 => ⟨S100000, .f32⟩
  | 83 => ⟨S_, .f32⟩
  | 84 => ⟨S100000, .f32⟩
  | 85 => ⟨S100000, .i1⟩
  | 86 => ⟨S_, .f32⟩
  | 87 => ⟨S100000, .f32⟩
  | 88 => ⟨S100000, .f32⟩
  | 89 => ⟨S_, .f32⟩
  | 90 => ⟨S_, .f32⟩
  | 91 => ⟨S100000, .f32⟩
  | 92 => ⟨S100000, .f32⟩
  | 93 => ⟨S_, .i32⟩
  | 94 => ⟨S700000, .i32⟩
  | 95 => ⟨S700000, .i1⟩
  | 96 => ⟨S_, .i32⟩
  | 97 => ⟨S700000, .i32⟩
  | 98 => ⟨S700000, .i32⟩
  | 99 => ⟨S700000, .i32⟩
  | 100 => ⟨S700000x1, .i32⟩
  | 101 => ⟨S700000, .f32⟩
  | 102 => ⟨S_, .i32⟩
  | 103 => ⟨S700000, .i32⟩
  | 104 => ⟨S700000, .i1⟩
  | 105 => ⟨S_, .i32⟩
  | 106 => ⟨S700000, .i32⟩
  | 107 => ⟨S700000, .i32⟩
  | 108 => ⟨S700000, .i32⟩
  | 109 => ⟨S700000x1, .i32⟩
  | 110 => ⟨S700000, .f32⟩
  | 111 => ⟨S700000, .f32⟩
  | 112 => ⟨S_, .i32⟩
  | 113 => ⟨S700000, .i32⟩
  | 114 => ⟨S700000, .i1⟩
  | 115 => ⟨S_, .i32⟩
  | 116 => ⟨S700000, .i32⟩
  | 117 => ⟨S700000, .i32⟩
  | 118 => ⟨S700000, .i32⟩
  | 119 => ⟨S700000x1, .i32⟩
  | 120 => ⟨S700000x64, .f32⟩
  | 121 => ⟨S700000x1, .f32⟩
  | 122 => ⟨S700000x64, .f32⟩
  | 123 => ⟨S700000x64, .f32⟩
  | 124 => ⟨S_, .f32⟩
  | 125 => ⟨S100000x64, .f32⟩
  | 126 => ⟨S700000x1, .i32⟩
  | 127 => ⟨S100000x64, .f32⟩
  | _ => ⟨S64x200, .i32⟩

abbrev hbmTy0_1 (i : Nat) : BufTy := match i % 128 with
  | 0 => ⟨S1x64, .f32⟩
  | 1 => ⟨S100000x64, .f32⟩
  | 2 => ⟨S100000x64, .f32⟩
  | 3 => ⟨S12800x1, .i32⟩
  | 4 => ⟨S12800x64, .f32⟩
  | 5 => ⟨S64x200x64, .f32⟩
  | _ => ⟨S64x200, .i32⟩

abbrev hbmTy (i : Nat) : BufTy := match i / 128 with
  | 0 => hbmTy0_0 i
  | 1 => hbmTy0_1 i
  | _ => ⟨S64x200, .i32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | .local _ .vmem, ⟨10, _⟩ => ⟨S3200x1, .i32⟩
  | .local _ .vmem, ⟨11, _⟩ => ⟨S3200x1, .i32⟩
  | .local _ .vmem, ⟨12, _⟩ => ⟨S2000x64, .f32⟩
  | .local _ .vmem, ⟨13, _⟩ => ⟨S2000x64, .f32⟩
  | .local _ .vmem, ⟨14, _⟩ => ⟨S3200x64, .f32⟩
  | .local _ .vmem, ⟨15, _⟩ => ⟨S3200x64, .f32⟩
  | _, _ => ⟨S64x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_c_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_10 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_12 : Ref sig .tc := ⟨.hbm, 83, rfl⟩
abbrev main_v60 : Ref sig .tc := ⟨.hbm, 84, rfl⟩
abbrev main_v61 : Ref sig .tc := ⟨.hbm, 85, rfl⟩
abbrev main_cst_13 : Ref sig .tc := ⟨.hbm, 86, rfl⟩
abbrev main_v62 : Ref sig .tc := ⟨.hbm, 87, rfl⟩
abbrev main_v63 : Ref sig .tc := ⟨.hbm, 88, rfl⟩
abbrev main_cst_14 : Ref sig .tc := ⟨.hbm, 89, rfl⟩
abbrev main_call1_v0 : Ref sig .tc := ⟨.hbm, 90, rfl⟩
abbrev main_call1_v1 : Ref sig .tc := ⟨.hbm, 91, rfl⟩
abbrev main_v64 : Ref sig .tc := ⟨.hbm, 92, rfl⟩
abbrev main_c_15 : Ref sig .tc := ⟨.hbm, 93, rfl⟩
abbrev main_v65 : Ref sig .tc := ⟨.hbm, 94, rfl⟩
abbrev main_v66 : Ref sig .tc := ⟨.hbm, 95, rfl⟩
abbrev main_c_16 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_17 : Ref sig .tc := ⟨.hbm, 102, rfl⟩
abbrev main_v72 : Ref sig .tc := ⟨.hbm, 103, rfl⟩
abbrev main_v73 : Ref sig .tc := ⟨.hbm, 104, rfl⟩
abbrev main_c_18 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_c_19 : Ref sig .tc := ⟨.hbm, 112, rfl⟩
abbrev main_v80 : Ref sig .tc := ⟨.hbm, 113, rfl⟩
abbrev main_v81 : Ref sig .tc := ⟨.hbm, 114, rfl⟩
abbrev main_c_20 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_21 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![4, 50], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S3200x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S3200x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S5000x128_S5000x128_0_0 : ∀ a, (![0, 0] : Fin 2 → Nat) a + S5000x128.size a ≤ S5000x128.size a
  h_S5000x128 : 0 < S5000x128.numel
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S100000_S700000_d0 : Shape.Concatenates [S600000, S100000] S700000 0
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  bcast_S700000x1_S700000x64_0_1 : S700000x1.BroadcastsInDim S700000x64 (![0, 1] : Fin 2 → Fin S700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S64x200_S12800x1 : S64x200.ShapeCasts S12800x1
  inb_S3200x64_S3200x64_0_0 : ∀ a, (![0, 0] : Fin 2 → Nat) a + S3200x64.size a ≤ S3200x64.size a
  h_S3200x64 : 0 < S3200x64.numel
  inb_S3200x1_S3200x1_0_0 : ∀ a, (![0, 0] : Fin 2 → Nat) a + S3200x1.size a ≤ S3200x1.size a
  h_S3200x1 : 0 < S3200x1.numel
  shapeCasts_S3200x1_S3200x1 : S3200x1.ShapeCasts S3200x1
  iota_S3200x2000_d1_w32 : S3200x2000.Iotas .tc 32 [1]
  broadcasts_S3200x1_S3200x2000 : S3200x1.Broadcasts S3200x2000
  natLt_1_32 : 1 < 32
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  shapeCasts_S3200x64_S3200x64 : S3200x64.ShapeCasts S3200x64
  shapeCasts_S12800x64_S64x200x64 : S12800x64.ShapeCasts S64x200x64
  dot_S5000x64_S64x128_S5000x128_1_0_0_1_n_n_wf : DotDims.WF S5000x64 S64x128 S5000x128 [1] [0] [0] [1] [] []
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S5000x128_S128x64_S5000x64_1_0_0_1_n_n_wf : DotDims.WF S5000x128 S128x64 S5000x64 [1] [0] [0] [1] [] []
  gather_S100000x64_S700000x1_S700000x64_1_0_n_n_0_1_164_wf : GatherDims.WF S100000x64 S700000x1 S700000x64 [1] [0] [] [0] [] 1 ![1, 64]
  scatter_S100000x64_S700000x1_S700000x64_1_0_0_1_wf : ScatterDims.WF S100000x64 S700000x1 S700000x64 [1] [0] [0] 1
  dot_S3200x2000_S2000x64_S3200x64_1_0_0_1_n_n_wf : DotDims.WF S3200x2000 S2000x64 S3200x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3200x1.size a ≤ S12800x1.size a
  hwx2_0 : ∀ i : grid2.Coords, EltTy.bits .i32 = 32 ∨ (Rect.block (s := S12800x1) S3200x1.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S100000x64.size a
  hwx2_1 : ∀ i : grid2.Coords, EltTy.bits .f32 = 32 ∨ (Rect.block (s := S100000x64) S2000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S3200x64.size a ≤ S12800x64.size a
  hwx2_2 : ∀ i : grid2.Coords, EltTy.bits .f32 = 32 ∨ (Rect.block (s := S12800x64) S3200x64.size (cc2_transform_2 i) (hinb2_2 i)).WholeWords (EltTy.packing .f32)

variable [Facts₀]

def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S700000x1_S700000x64_1_0_n_n_0_1_164 : GatherDims S100000x64 S700000x1 S700000x64 where
  offsetDims := [1]
  collapsedSliceDims := [0]
  operandBatchingDims := []
  startIndicesBatchingDims := []
  startIndexMap := [0]
  indexVectorDim := 1
  sliceSizes := ![1, 64]
  wf := gather_S100000x64_S700000x1_S700000x64_1_0_n_n_0_1_164_wf
def scatter_S100000x64_S700000x1_S700000x64_1_0_0_1 : ScatterDims S100000x64 S700000x1 S700000x64 where
  updateWindowDims := [1]
  insertedWindowDims := [0]
  scatterDimsToOperandDims := [0]
  indexVectorDim := 1
  wf := scatter_S100000x64_S700000x1_S700000x64_1_0_0_1_wf
def dot_S3200x2000_S2000x64_S3200x64_1_0_0_1_n_n : DotDims S3200x2000 S2000x64 S3200x64 where
  lhsContracting := [1]
  rhsContracting := [0]
  lhsNonContracting := [0]
  rhsNonContracting := [1]
  lhsBatch := []
  rhsBatch := []
  wf := dot_S3200x2000_S2000x64_S3200x64_1_0_0_1_n_n_wf

abbrev win0_0 : Pipeline.Window sig grid0 :=
  Pipeline.Window.ofSpec (Memref.whole main_arg1) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v96) S3200x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v95) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v97) S3200x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S64x200 : Shape := ⟨2, ![64, 200]⟩
abbrev S100000x64 : Shape := ⟨2, ![100000, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S2x600000 : Shape := ⟨2, ![2, 600000]⟩
abbrev S1x600000 : Shape := ⟨2, ![1, 600000]⟩
abbrev S600000 : Shape := ⟨1, ![600000]⟩
abbrev S100000 : Shape := ⟨1, ![100000]⟩
abbrev S700000 : Shape := ⟨1, ![700000]⟩
abbrev S_ : Shape := ⟨0, ![]⟩
abbrev S700000x1 : Shape := ⟨2, ![700000, 1]⟩
abbrev S100000x128 : Shape := ⟨2, ![100000, 128]⟩
abbrev S700000x128 : Shape := ⟨2, ![700000, 128]⟩
abbrev S1x128 : Shape := ⟨2, ![1, 128]⟩
abbrev S700000x64 : Shape := ⟨2, ![700000, 64]⟩
abbrev S1x64 : Shape := ⟨2, ![1, 64]⟩
abbrev S64x200x1 : Shape := ⟨3, ![64, 200, 1]⟩
abbrev S64x200x64 : Shape := ⟨3, ![64, 200, 64]⟩

abbrev nBuf : Space → Nat
  | .hbm => 140
  | .vmem => 0
  | .smem => 0
  | _ => 0

abbrev hbmTy0_0 (i : Nat) : BufTy := match i % 128 with
  | 0 => ⟨S64x200, .i32⟩
  | 1 => ⟨S100000x64, .f32⟩
  | 2 => ⟨S64x128, .f32⟩
  | 3 => ⟨S128, .f32⟩
  | 4 => ⟨S128x64, .f32⟩
  | 5 => ⟨S64, .f32⟩
  | 6 => ⟨S2x600000, .i32⟩
  | 7 => ⟨S1x600000, .i32⟩
  | 8 => ⟨S600000, .i32⟩
  | 9 => ⟨S1x600000, .i32⟩
  | 10 => ⟨S600000, .i32⟩
  | 11 => ⟨S100000, .i32⟩
  | 12 => ⟨S700000, .i32⟩
  | 13 => ⟨S700000, .i32⟩
  | 14 => ⟨S_, .f32⟩
  | 15 => ⟨S700000, .f32⟩
  | 16 => ⟨S_, .f32⟩
  | 17 => ⟨S100000, .f32⟩
  | 18 => ⟨S700000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S700000, .i32⟩
  | 32 => ⟨S700000, .i1⟩
  | 33 => ⟨S_, .i32⟩
  | 34 => ⟨S700000, .i32⟩
  | 35 => ⟨S700000, .i32⟩
  | 36 => ⟨S700000, .i32⟩
  | 37 => ⟨S700000x1, .i32⟩
  | 38 => ⟨S700000, .f32⟩
  | 39 => ⟨S_, .i32⟩
  | 40 => ⟨S700000, .i32⟩
  | 41 => ⟨S700000, .i1⟩
  | 42 => ⟨S_, .i32⟩
  | 43 => ⟨S700000, .i32⟩
  | 44 => ⟨S700000, .i32⟩
  | 45 => ⟨S700000, .i32⟩
  | 46 => ⟨S700000x1, .i32⟩
  | 47 => ⟨S700000, .f32⟩
  | 48 => ⟨S700000, .f32⟩
  | 49 => ⟨S100000x128, .f32⟩
  | 50 => ⟨S_, .i32⟩
  | 51 => ⟨S700000, .i32⟩
  | 52 => ⟨S700000, .i1⟩
  | 53 => ⟨S_, .i32⟩
  | 54 => ⟨S700000, .i32⟩
  | 55 => ⟨S700000, .i32⟩
  | 56 => ⟨S700000, .i32⟩
  | 57 => ⟨S700000x1, .i32⟩
  | 58 => ⟨S700000x128, .f32⟩
  | 59 => ⟨S700000x1, .f32⟩
  | 60 => ⟨S700000x128, .f32⟩
  | 61 => ⟨S700000x128, .f32⟩
  | 62 => ⟨S_, .f32⟩
  | 63 => ⟨S100000x128, .f32⟩
  | 64 => ⟨S700000x1, .i32⟩
  | 65 => ⟨S100000x128, .f32⟩
  | 66 => ⟨S1x128, .f32⟩
  | 67 => ⟨S100000x128, .f32⟩
  | 68 => ⟨S100000x128, .f32⟩
  | 69 => ⟨S1x600000, .i32⟩
  | 70 => ⟨S600000, .i32⟩
  | 71 => ⟨S1x600000, .i32⟩
  | 72 => ⟨S600000, .i32⟩
  | 73 => ⟨S100000, .i32⟩
  | 74 => ⟨S700000, .i32⟩
  | 75 => ⟨S700000, .i32⟩
  | 76 => ⟨S_, .f32⟩
  | 77 => ⟨S700000, .f32⟩
  | 78 => ⟨S_, .f32⟩
  | 79 => ⟨S100000, .f32⟩
  | 80 => ⟨S700000x1, .i32⟩
  | 81 => ⟨S100000, .f32⟩
  | 82 => ⟨S_, .f32⟩
  | 83 => ⟨S100000, .f32⟩
  | 84 => ⟨S100000, .i1⟩
  | 85 => ⟨S_, .f32⟩
  | 86 => ⟨S100000, .f32⟩
  | 87 => ⟨S100000, .f32⟩
  | 88 => ⟨S_, .f32⟩
  | 89 => ⟨S_, .f32⟩
  | 90 => ⟨S100000, .f32⟩
  | 91 => ⟨S100000, .f32⟩
  | 92 => ⟨S_, .i32⟩
  | 93 => ⟨S700000, .i32⟩
  | 94 => ⟨S700000, .i1⟩
  | 95 => ⟨S_, .i32⟩
  | 96 => ⟨S700000, .i32⟩
  | 97 => ⟨S700000, .i32⟩
  | 98 => ⟨S700000, .i32⟩
  | 99 => ⟨S700000x1, .i32⟩
  | 100 => ⟨S700000, .f32⟩
  | 101 => ⟨S_, .i32⟩
  | 102 => ⟨S700000, .i32⟩
  | 103 => ⟨S700000, .i1⟩
  | 104 => ⟨S_, .i32⟩
  | 105 => ⟨S700000, .i32⟩
  | 106 => ⟨S700000, .i32⟩
  | 107 => ⟨S700000, .i32⟩
  | 108 => ⟨S700000x1, .i32⟩
  | 109 => ⟨S700000, .f32⟩
  | 110 => ⟨S700000, .f32⟩
  | 111 => ⟨S100000x64, .f32⟩
  | 112 => ⟨S_, .i32⟩
  | 113 => ⟨S700000, .i32⟩
  | 114 => ⟨S700000, .i1⟩
  | 115 => ⟨S_, .i32⟩
  | 116 => ⟨S700000, .i32⟩
  | 117 => ⟨S700000, .i32⟩
  | 118 => ⟨S700000, .i32⟩
  | 119 => ⟨S700000x1, .i32⟩
  | 120 => ⟨S700000x64, .f32⟩
  | 121 => ⟨S700000x1, .f32⟩
  | 122 => ⟨S700000x64, .f32⟩
  | 123 => ⟨S700000x64, .f32⟩
  | 124 => ⟨S_, .f32⟩
  | 125 => ⟨S100000x64, .f32⟩
  | 126 => ⟨S700000x1, .i32⟩
  | 127 => ⟨S100000x64, .f32⟩
  | _ => ⟨S64x200, .i32⟩

abbrev hbmTy0_1 (i : Nat) : BufTy := match i % 128 with
  | 0 => ⟨S1x64, .f32⟩
  | 1 => ⟨S100000x64, .f32⟩
  | 2 => ⟨S100000x64, .f32⟩
  | 3 => ⟨S_, .i32⟩
  | 4 => ⟨S64x200, .i32⟩
  | 5 => ⟨S64x200, .i1⟩
  | 6 => ⟨S_, .i32⟩
  | 7 => ⟨S64x200, .i32⟩
  | 8 => ⟨S64x200, .i32⟩
  | 9 => ⟨S64x200, .i32⟩
  | 10 => ⟨S64x200x1, .i32⟩
  | 11 => ⟨S64x200x64, .f32⟩
  | _ => ⟨S64x200, .i32⟩

abbrev hbmTy (i : Nat) : BufTy := match i / 128 with
  | 0 => hbmTy0_0 i
  | 1 => hbmTy0_1 i
  | _ => ⟨S64x200, .i32⟩

abbrev bufTy : (tb : Table) → Fin (tcTables nBuf tb) → BufTy
  | .hbm, ⟨i, _⟩ => hbmTy i
  | _, _ => ⟨S64x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_c_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_10 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_12 : Ref sig .tc := ⟨.hbm, 82, rfl⟩
abbrev main_v59 : Ref sig .tc := ⟨.hbm, 83, rfl⟩
abbrev main_v60 : Ref sig .tc := ⟨.hbm, 84, rfl⟩
abbrev main_cst_13 : Ref sig .tc := ⟨.hbm, 85, rfl⟩
abbrev main_v61 : Ref sig .tc := ⟨.hbm, 86, rfl⟩
abbrev main_v62 : Ref sig .tc := ⟨.hbm, 87, rfl⟩
abbrev main_cst_14 : Ref sig .tc := ⟨.hbm, 88, rfl⟩
abbrev main_call1_v0 : Ref sig .tc := ⟨.hbm, 89, rfl⟩
abbrev main_call1_v1 : Ref sig .tc := ⟨.hbm, 90, rfl⟩
abbrev main_v63 : Ref sig .tc := ⟨.hbm, 91, rfl⟩
abbrev main_c_15 : Ref sig .tc := ⟨.hbm, 92, rfl⟩
abbrev main_v64 : Ref sig .tc := ⟨.hbm, 93, rfl⟩
abbrev main_v65 : Ref sig .tc := ⟨.hbm, 94, rfl⟩
abbrev main_c_16 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_17 : Ref sig .tc := ⟨.hbm, 101, rfl⟩
abbrev main_v71 : Ref sig .tc := ⟨.hbm, 102, rfl⟩
abbrev main_v72 : Ref sig .tc := ⟨.hbm, 103, rfl⟩
abbrev main_c_18 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_c_19 : Ref sig .tc := ⟨.hbm, 112, rfl⟩
abbrev main_v80 : Ref sig .tc := ⟨.hbm, 113, rfl⟩
abbrev main_v81 : Ref sig .tc := ⟨.hbm, 114, rfl⟩
abbrev main_c_20 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_21 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_c_22 : Ref sig .tc := ⟨.hbm, 131, rfl⟩
abbrev main_v96 : Ref sig .tc := ⟨.hbm, 132, rfl⟩
abbrev main_v97 : Ref sig .tc := ⟨.hbm, 133, rfl⟩
abbrev main_c_23 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S100000_S700000_d0 : Shape.Concatenates [S600000, S100000] S700000 0
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S700000x1_S700000x64_0_1 : S700000x1.BroadcastsInDim S700000x64 (![0, 1] : Fin 2 → Fin S700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x200 : S_.BroadcastsInDim S64x200 (![] : Fin 0 → Fin S64x200.rank)
  bcast_S64x200_S64x200x1_0_1 : S64x200.BroadcastsInDim S64x200x1 (![0, 1] : Fin 2 → Fin S64x200x1.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S100000x64_S64x128_S100000x128_1_0_0_1_n_n_wf : DotDims.WF S100000x64 S64x128 S100000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S100000x128_S128x64_S100000x64_1_0_0_1_n_n_wf : DotDims.WF S100000x128 S128x64 S100000x64 [1] [0] [0] [1] [] []
  gather_S100000x64_S700000x1_S700000x64_1_0_n_n_0_1_164_wf : GatherDims.WF S100000x64 S700000x1 S700000x64 [1] [0] [] [0] [] 1 ![1, 64]
  scatter_S100000x64_S700000x1_S700000x64_1_0_0_1_wf : ScatterDims.WF S100000x64 S700000x1 S700000x64 [1] [0] [0] 1
  gather_S100000x64_S64x200x1_S64x200x64_2_0_n_n_0_2_164_wf : GatherDims.WF S100000x64 S64x200x1 S64x200x64 [2] [0] [] [0] [] 2 ![1, 64]

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S700000x1_S700000x64_1_0_n_n_0_1_164 : GatherDims S100000x64 S700000x1 S700000x64 where
  offsetDims := [1]
  collapsedSliceDims := [0]
  operandBatchingDims := []
  startIndicesBatchingDims := []
  startIndexMap := [0]
  indexVectorDim := 1
  sliceSizes := ![1, 64]
  wf := gather_S100000x64_S700000x1_S700000x64_1_0_n_n_0_1_164_wf
def scatter_S100000x64_S700000x1_S700000x64_1_0_0_1 : ScatterDims S100000x64 S700000x1 S700000x64 where
  updateWindowDims := [1]
  insertedWindowDims := [0]
  scatterDimsToOperandDims := [0]
  indexVectorDim := 1
  wf := scatter_S100000x64_S700000x1_S700000x64_1_0_0_1_wf
def gather_S100000x64_S64x200x1_S64x200x64_2_0_n_n_0_2_164 : GatherDims S100000x64 S64x200x1 S64x200x64 where
  offsetDims := [2]
  collapsedSliceDims := [0]
  operandBatchingDims := []
  startIndicesBatchingDims := []
  startIndexMap := [0]
  indexVectorDim := 2
  sliceSizes := ![1, 64]
  wf := gather_S100000x64_S64x200x1_S64x200x64_2_0_n_n_0_2_164_wf

class Facts : Prop extends Facts₀ where

variable [Facts]
-- ==== Proof.LibAgree.lean ====
import Idealize.ShloMosaic.Lib.StableHlo.Run

/-!
# Two lines of host operations stepped in lockstep

Two programs over two signatures run the same operations on buffers paired by position. `Agree P V₁ V₂` says the two
valuations hold the same contents at every pair of the list `P`; the contents of a pair are compared heterogeneously,
the two signatures giving the paired buffers types that are equal only once their tables are unfolded. `Sim P ops ops' Q`
says: from valuations agreeing on `P`, after `ops` on one side and `ops'` on the other the valuations agree on `Q`.
One rule per builder steps an operation on each side and adds the pair of result buffers; every buffer being written
once, a pair already listed is never written again (the freshness hypotheses).
-/

namespace Idealize.ShloMosaic.StableHlo

variable {τ : Topo} {sig₁ sig₂ : RefSig} {Val : EltTy → Type}

/-! ## Heterogeneous congruence -/

/-- Heterogeneously equal functions at heterogeneously equal arguments, the domains and the codomains being equal types. -/
theorem heq_app {A A' B B' : Type} (hA : A = A') (hB : B = B') {f : A → B} {f' : A' → B'} (hf : HEq f f')
    {a : A} {a' : A'} (ha : HEq a a') : HEq (f a) (f' a') := by
  subst hA hB; cases hf; cases ha; rfl

/-- Dependent families that agree pointwise, over pointwise equal types. -/
theorem heq_pi {ι : Type} {A A' : ι → Type} (hA : ∀ k, A k = A' k) {g : (k : ι) → A k} {g' : (k : ι) → A' k}
    (h : ∀ k, HEq (g k) (g' k)) : HEq g g' := by
  obtain rfl : A = A' := funext hA
  exact heq_of_eq (funext fun k => eq_of_heq (h k))

/-- Functions of a dependent family, likewise. -/
theorem heq_app_pi {ι : Type} {A A' : ι → Type} {B B' : Type} (hA : ∀ k, A k = A' k) (hB : B = B')
    {f : ((k : ι) → A k) → B} {f' : ((k : ι) → A' k) → B'} (hf : HEq f f')
    {g : (k : ι) → A k} {g' : (k : ι) → A' k} (h : ∀ k, HEq (g k) (g' k)) : HEq (f g) (f' g') := by
  obtain rfl : A = A' := funext hA
  subst hB; cases hf
  exact heq_of_eq (congrArg f (funext fun k => eq_of_heq (h k)))

/-- A reshape of heterogeneously equal contents, the buffer types being equal. -/
theorem heq_reshape {T₁ T₁' T₂ T₂' : BufTy} (h₁ : T₁ = T₁') (h₂ : T₂ = T₂') (he : T₁.elt = T₂.elt) (he' : T₁'.elt = T₂'.elt)
    (hn : T₁.shape.ShapeCasts T₂.shape) (hn' : T₁'.shape.ShapeCasts T₂'.shape)
    {a : T₁.Contents Val} {a' : T₁'.Contents Val} (ha : HEq a a') :
    HEq (fun i => he ▸ shapeCast T₂.shape a hn i : T₂.Contents Val) (fun i => he' ▸ shapeCast T₂'.shape a' hn' i : T₂'.Contents Val) := by
  subst h₁ h₂; cases ha; rfl

/-! ## Agreement on a list of pairs -/

/-- The two valuations hold the same contents at every pair of `P`. -/
def Agree (P : List (Ref sig₁ .tc × Ref sig₂ .tc)) (V₁ : Valuation τ sig₁ Val) (V₂ : Valuation τ sig₂ Val) : Prop :=
  ∀ p ∈ P, HEq (V₁ (Proc.devRef .tc p.1)) (V₂ (Proc.devRef .tc p.2))

namespace Agree

variable {P Q : List (Ref sig₁ .tc × Ref sig₂ .tc)} {V₁ : Valuation τ sig₁ Val} {V₂ : Valuation τ sig₂ Val}

theorem nil : Agree (τ := τ) (Val := Val) ([] : List (Ref sig₁ .tc × Ref sig₂ .tc)) V₁ V₂ := fun _ h => absurd h List.not_mem_nil

theorem cons {a : Ref sig₁ .tc} {a' : Ref sig₂ .tc} (h : HEq (V₁ (Proc.devRef .tc a)) (V₂ (Proc.devRef .tc a')))
    (t : Agree P V₁ V₂) : Agree ((a, a') :: P) V₁ V₂ := fun p hp => by
  rcases List.mem_cons.mp hp with rfl | hp
  · exact h
  · exact t p hp

/-- The contents at a listed pair. -/
theorem get (h : Agree P V₁ V₂) {a : Ref sig₁ .tc} {a' : Ref sig₂ .tc} (hin : (a, a') ∈ P) :
    HEq (V₁ (Proc.devRef .tc a)) (V₂ (Proc.devRef .tc a')) := h (a, a') hin

/-- Pairs may be dropped. -/
theorem mono (h : Agree P V₁ V₂) (hQ : Q ⊆ P) : Agree Q V₁ V₂ := fun p hp => h p (hQ hp)

/-- An operation on each side, each writing one buffer that no listed pair names, the two results being the same: the
    valuations after them agree on the list and on the pair of result buffers. -/
theorem write (h : Agree P V₁ V₂) {op : HloOp τ sig₁ Val} {op' : HloOp τ sig₂ Val} {y : Ref sig₁ .tc} {y' : Ref sig₂ .tc}
    (hw : op.writes = {Proc.devRef .tc y}) (hw' : op'.writes = {Proc.devRef .tc y'})
    (hy : y ∉ P.map Prod.fst) (hy' : y' ∉ P.map Prod.snd)
    (hres : HEq (op.result V₁ (Proc.devRef .tc y)) (op'.result V₂ (Proc.devRef .tc y'))) :
    Agree ((y, y') :: P) (op.result V₁) (op'.result V₂) := fun p hp => by
  rcases List.mem_cons.mp hp with rfl | hp
  · exact hres
  · have h1 : Proc.devRef .tc p.1 ∉ op.writes := by
      rw [hw, Finset.mem_singleton]
      exact devRef_ne_of_ne fun e => hy (e ▸ List.mem_map_of_mem (f := Prod.fst) hp)
    have h2 : Proc.devRef .tc p.2 ∉ op'.writes := by
      rw [hw', Finset.mem_singleton]
      exact devRef_ne_of_ne fun e => hy' (e ▸ List.mem_map_of_mem (f := Prod.snd) hp)
    rw [op.result_of_not_mem V₁ h1, op'.result_of_not_mem V₂ h2]
    exact h p hp

/-- An operation on the first side only, writing one buffer that no listed pair names. -/
theorem writeL (h : Agree P V₁ V₂) {op : HloOp τ sig₁ Val} {y : Ref sig₁ .tc}
    (hw : op.writes = {Proc.devRef .tc y}) (hy : y ∉ P.map Prod.fst) : Agree P (op.result V₁) V₂ := fun p hp => by
  have h1 : Proc.devRef .tc p.1 ∉ op.writes := by
    rw [hw, Finset.mem_singleton]
    exact devRef_ne_of_ne fun e => hy (e ▸ List.mem_map_of_mem (f := Prod.fst) hp)
  rw [op.result_of_not_mem V₁ h1]
  exact h p hp

/-- An operation on the second side only. -/
theorem writeR (h : Agree P V₁ V₂) {op' : HloOp τ sig₂ Val} {y' : Ref sig₂ .tc}
    (hw' : op'.writes = {Proc.devRef .tc y'}) (hy' : y' ∉ P.map Prod.snd) : Agree P V₁ (op'.result V₂) := fun p hp => by
  have h2 : Proc.devRef .tc p.2 ∉ op'.writes := by
    rw [hw', Finset.mem_singleton]
    exact devRef_ne_of_ne fun e => hy' (e ▸ List.mem_map_of_mem (f := Prod.snd) hp)
  rw [op'.result_of_not_mem V₂ h2]
  exact h p hp

end Agree

/-! ## Two lines in lockstep -/

/-- From valuations agreeing on `P`, after `ops` on one side and `ops'` on the other the valuations agree on `Q`. -/
def Sim (P : List (Ref sig₁ .tc × Ref sig₂ .tc)) (ops : List (HloOp τ sig₁ Val)) (ops' : List (HloOp τ sig₂ Val))
    (Q : List (Ref sig₁ .tc × Ref sig₂ .tc)) : Prop :=
  ∀ (V₁ : Valuation τ sig₁ Val) (V₂ : Valuation τ sig₂ Val), Agree P V₁ V₂ → Agree Q (after ops V₁) (after ops' V₂)

namespace Sim

variable {P P' Q : List (Ref sig₁ .tc × Ref sig₂ .tc)} {ops l₁ l₂ : List (HloOp τ sig₁ Val)} {ops' l₁' l₂' : List (HloOp τ sig₂ Val)}

/-- Both lines done: keep the pairs wanted. -/
theorem done (hQ : Q ⊆ P) : Sim (τ := τ) (Val := Val) P [] [] Q := fun _ _ h => h.mono hQ

/-- One operation on each side, then the rest. -/
theorem step {op : HloOp τ sig₁ Val} {op' : HloOp τ sig₂ Val}
    (hstep : ∀ (V₁ : Valuation τ sig₁ Val) (V₂ : Valuation τ sig₂ Val), Agree P V₁ V₂ → Agree P' (op.result V₁) (op'.result V₂))
    (k : Sim P' ops ops' Q) : Sim P (op :: ops) (op' :: ops') Q := fun V₁ V₂ h => k _ _ (hstep V₁ V₂ h)

/-- An operation on the first side with no counterpart, writing a buffer no listed pair names. -/
theorem skipL {op : HloOp τ sig₁ Val} {y : Ref sig₁ .tc} (hw : op.writes = {Proc.devRef .tc y}) (hy : y ∉ P.map Prod.fst)
    (k : Sim P ops ops' Q) : Sim P (op :: ops) ops' Q := fun V₁ V₂ h => k _ _ (h.writeL hw hy)

/-- An operation on the second side with no counterpart. -/
theorem skipR {op' : HloOp τ sig₂ Val} {y' : Ref sig₂ .tc} (hw' : op'.writes = {Proc.devRef .tc y'}) (hy' : y' ∉ P.map Prod.snd)
    (k : Sim P ops ops' Q) : Sim P ops (op' :: ops') Q := fun V₁ V₂ h => k _ _ (h.writeR hw' hy')

private theorem after_append' {sig : RefSig} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_append' l₁ l₂]

/-- Two stretches in a row. -/
theorem append (h₁ : Sim P l₁ l₁' P') (h₂ : Sim P' l₂ l₂' Q) : Sim P (l₁ ++ l₂) (l₁' ++ l₂') Q := fun V₁ V₂ h => by
  rw [after_append', after_append']
  exact h₂ _ _ (h₁ _ _ h)

/-- A first stretch, then the flattening of the others. -/
theorem flatten_cons {L : List (List (HloOp τ sig₁ Val))} {L' : List (List (HloOp τ sig₂ Val))}
    (h₁ : Sim P l₁ l₁' P') (h₂ : Sim P' L.flatten L'.flatten Q) : Sim P (l₁ :: L).flatten (l₁' :: L').flatten Q := by
  rw [List.flatten_cons, List.flatten_cons]
  exact h₁.append h₂

/-- The pairs kept may be dropped afterwards. -/
theorem mono {Q' : List (Ref sig₁ .tc × Ref sig₂ .tc)} (h : Sim P ops ops' Q) (hQ : Q' ⊆ Q) : Sim P ops ops' Q' :=
  fun V₁ V₂ hP => (h V₁ V₂ hP).mono hQ

/-- What the two lines leave at a pair kept. -/
theorem get (h : Sim P ops ops' Q) {V₁ : Valuation τ sig₁ Val} {V₂ : Valuation τ sig₂ Val} (hP : Agree P V₁ V₂)
    {a : Ref sig₁ .tc} {a' : Ref sig₂ .tc} (hin : (a, a') ∈ Q) :
    HEq (after ops V₁ (Proc.devRef .tc a)) (after ops' V₂ (Proc.devRef .tc a')) := (h V₁ V₂ hP).get hin

/-! ### One rule per builder -/

section Builders

variable {x a b c y : Ref sig₁ .tc} {x' a' b' c' y' : Ref sig₂ .tc}

/-- `%y = ‹op›` on both sides. -/
theorem nullary {v : y.ty.Contents Val} {v' : y'.ty.Contents Val} {hy hy'}
    (hv : HEq v v') (hfy : y ∉ P.map Prod.fst) (hfy' : y' ∉ P.map Prod.snd)
    (k : Sim ((y, y') :: P) ops ops' Q) :
    Sim P (StableHlo.nullary (τ := τ) y v hy :: ops) (StableHlo.nullary (τ := τ) y' v' hy' :: ops') Q :=
  step (fun V₁ V₂ h => h.write rfl rfl hfy hfy' (by rw [nullary_result, nullary_result]; exact hv)) k

/-- `%y = ‹op› %x` on both sides. -/
theorem unary {f : x.ty.Contents Val → y.ty.Contents Val} {f' : x'.ty.Contents Val → y'.ty.Contents Val} {hx hy hx' hy'}
    (hin : (x, x') ∈ P) (htx : x.ty = x'.ty) (hty : y.ty = y'.ty) (hf : HEq f f')
    (hfy : y ∉ P.map Prod.fst) (hfy' : y' ∉ P.map Prod.snd)
    (k : Sim ((y, y') :: P) ops ops' Q) :
    Sim P (StableHlo.unary (τ := τ) x y f hx hy :: ops) (StableHlo.unary (τ := τ) x' y' f' hx' hy' :: ops') Q :=
  step (fun V₁ V₂ h => h.write rfl rfl hfy hfy' (by
    rw [unary_result, unary_result]
    exact heq_app (congrArg (BufTy.Contents Val) htx) (congrArg (BufTy.Contents Val) hty) hf (h.get hin))) k

/-- `%y = ‹op› %a, %b` on both sides. -/
theorem binary {f : a.ty.Contents Val → b.ty.Contents Val → y.ty.Contents Val}
    {f' : a'.ty.Contents Val → b'.ty.Contents Val → y'.ty.Contents Val} {ha hb hy ha' hb' hy'}
    (hina : (a, a') ∈ P) (hinb : (b, b') ∈ P) (hta : a.ty = a'.ty) (htb : b.ty = b'.ty) (hty : y.ty = y'.ty) (hf : HEq f f')
    (hfy : y ∉ P.map Prod.fst) (hfy' : y' ∉ P.map Prod.snd)
    (k : Sim ((y, y') :: P) ops ops' Q) :
    Sim P (StableHlo.binary (τ := τ) a b y f ha hb hy :: ops) (StableHlo.binary (τ := τ) a' b' y' f' ha' hb' hy' :: ops') Q :=
  step (fun V₁ V₂ h => h.write rfl rfl hfy hfy' (by
    rw [binary_result, binary_result]
    have hB := congrArg (BufTy.Contents Val) htb
    have hY := congrArg (BufTy.Contents Val) hty
    exact heq_app hB hY
      (heq_app (congrArg (BufTy.Contents Val) hta) (by rw [hB, hY]) hf (h.get hina)) (h.get hinb))) k

/-- `%y = ‹op› %c, %a, %b` on both sides. -/
theorem ternary {f : c.ty.Contents Val → a.ty.Contents Val → b.ty.Contents Val → y.ty.Contents Val}
    {f' : c'.ty.Contents Val → a'.ty.Contents Val → b'.ty.Contents Val → y'.ty.Contents Val} {hc ha hb hy hc' ha' hb' hy'}
    (hinc : (c, c') ∈ P) (hina : (a, a') ∈ P) (hinb : (b, b') ∈ P)
    (htc : c.ty = c'.ty) (hta : a.ty = a'.ty) (htb : b.ty = b'.ty) (hty : y.ty = y'.ty) (hf : HEq f f')
    (hfy : y ∉ P.map Prod.fst) (hfy' : y' ∉ P.map Prod.snd)
    (k : Sim ((y, y') :: P) ops ops' Q) :
    Sim P (StableHlo.ternary (τ := τ) c a b y f hc ha hb hy :: ops) (StableHlo.ternary (τ := τ) c' a' b' y' f' hc' ha' hb' hy' :: ops') Q :=
  step (fun V₁ V₂ h => h.write rfl rfl hfy hfy' (by
    rw [ternary_result, ternary_result]
    have hA := congrArg (BufTy.Contents Val) hta
    have hB := congrArg (BufTy.Contents Val) htb
    have hY := congrArg (BufTy.Contents Val) hty
    exact heq_app hB hY
      (heq_app hA (by rw [hB, hY])
        (heq_app (congrArg (BufTy.Contents Val) htc) (by rw [hA, hB, hY]) hf (h.get hinc)) (h.get hina)) (h.get hinb))) k

/-- `%y = ‹op› %x₀, …, %xₙ₋₁` on both sides. -/
theorem nary {n : Nat} {xs : Fin n → Ref sig₁ .tc} {xs' : Fin n → Ref sig₂ .tc}
    {f : ((k : Fin n) → (xs k).ty.Contents Val) → y.ty.Contents Val}
    {f' : ((k : Fin n) → (xs' k).ty.Contents Val) → y'.ty.Contents Val} {hxs hy hxs' hy'}
    (hin : ∀ k, (xs k, xs' k) ∈ P) (htx : ∀ k, (xs k).ty = (xs' k).ty) (hty : y.ty = y'.ty) (hf : HEq f f')
    (hfy : y ∉ P.map Prod.fst) (hfy' : y' ∉ P.map Prod.snd)
    (k : Sim ((y, y') :: P) ops ops' Q) :
    Sim P (StableHlo.nary (τ := τ) xs y f hxs hy :: ops) (StableHlo.nary (τ := τ) xs' y' f' hxs' hy' :: ops') Q :=
  step (fun V₁ V₂ h => h.write rfl rfl hfy hfy' (by
    rw [nary_result, nary_result]
    exact heq_app_pi (fun k => congrArg (BufTy.Contents Val) (htx k)) (congrArg (BufTy.Contents Val) hty) hf
      (fun k => h.get (hin k)))) k

/-- `%y = ‹op› %x₀, %x₁, %x₂, %x₃` on both sides, the four operands a literal family: the two functions are compared at
    operands given one by one. -/
theorem nary4 {x0 x1 x2 x3 : Ref sig₁ .tc} {x0' x1' x2' x3' : Ref sig₂ .tc}
    {f : ((k : Fin 4) → ((![x0, x1, x2, x3] : Fin 4 → Ref sig₁ .tc) k).ty.Contents Val) → y.ty.Contents Val}
    {f' : ((k : Fin 4) → ((![x0', x1', x2', x3'] : Fin 4 → Ref sig₂ .tc) k).ty.Contents Val) → y'.ty.Contents Val} {hxs hy hxs' hy'}
    (hin0 : (x0, x0') ∈ P) (hin1 : (x1, x1') ∈ P) (hin2 : (x2, x2') ∈ P) (hin3 : (x3, x3') ∈ P)
    (hf : ∀ (u0 : x0.ty.Contents Val) (u0' : x0'.ty.Contents Val) (u1 : x1.ty.Contents Val) (u1' : x1'.ty.Contents Val)
        (u2 : x2.ty.Contents Val) (u2' : x2'.ty.Contents Val) (u3 : x3.ty.Contents Val) (u3' : x3'.ty.Contents Val),
        HEq u0 u0' → HEq u1 u1' → HEq u2 u2' → HEq u3 u3' →
        HEq (f (Fin.cons u0 (Fin.cons u1 (Fin.cons u2 (Fin.cons u3 (fun i => i.elim0))))))
          (f' (Fin.cons u0' (Fin.cons u1' (Fin.cons u2' (Fin.cons u3' (fun i => i.elim0)))))))
    (hfy : y ∉ P.map Prod.fst) (hfy' : y' ∉ P.map Prod.snd)
    (k : Sim ((y, y') :: P) ops ops' Q) :
    Sim P (StableHlo.nary (τ := τ) ![x0, x1, x2, x3] y f hxs hy :: ops) (StableHlo.nary (τ := τ) ![x0', x1', x2', x3'] y' f' hxs' hy' :: ops') Q :=
  step (fun V₁ V₂ h => h.write rfl rfl hfy hfy' (by
    rw [nary4_result, nary4_result]
    exact hf _ _ _ _ _ _ _ _ (h.get hin0) (h.get hin1) (h.get hin2) (h.get hin3))) k

/-- `%y = stablehlo.reshape %x` on both sides. -/
theorem reshape {he hn hx hy he' hn' hx' hy'}
    (hin : (x, x') ∈ P) (htx : x.ty = x'.ty) (hty : y.ty = y'.ty)
    (hfy : y ∉ P.map Prod.fst) (hfy' : y' ∉ P.map Prod.snd)
    (k : Sim ((y, y') :: P) ops ops' Q) :
    Sim P (StableHlo.reshape (τ := τ) (Val := Val) x y he hn hx hy :: ops) (StableHlo.reshape (τ := τ) (Val := Val) x' y' he' hn' hx' hy' :: ops') Q :=
  step (fun V₁ V₂ h => h.write rfl rfl hfy hfy' (by
    rw [reshape_result, reshape_result]
    exact heq_reshape htx hty he he' hn hn' (h.get hin))) k

end Builders

end Sim

end Idealize.ShloMosaic.StableHlo
-- ==== Proof.LibHostSteps.lean ====
import proofs.«411832_j70755291234320_1_alg».proof.Proof.LibAgree
import Idealize.ShloMosaic.Lib.Pipeline.Frame

/-!
# A line of host operations against the beginning of a longer one, and buffers a line leaves alone

Two additions to the lockstep comparison of two lines of host operations.

`SimPre P ops ops' Q rest`: from valuations agreeing on the pairs `P`, once ALL of `ops` has run on one side and the
first operations of `ops'` on the other — as many as `ops` has — the valuations agree on `Q`, and `rest` is what is
left of `ops'`. So a long line on one side can be compared stretch by stretch with several short lines on the other
side, between which something else happens.

`Keeps K ops`: no operation of `ops` writes a buffer of the list `K`, so each of them holds after `ops` what it held
before.
-/

namespace Idealize.ShloMosaic.StableHlo

variable {τ : Topo} {sig₁ sig₂ : RefSig} {Val : EltTy → Type}

/-- All of `ops` on one side against as many first operations of `ops'` on the other; `rest` is left of `ops'`. -/
def SimPre (P : List (Ref sig₁ .tc × Ref sig₂ .tc)) (ops : List (HloOp τ sig₁ Val)) (ops' : List (HloOp τ sig₂ Val))
    (Q : List (Ref sig₁ .tc × Ref sig₂ .tc)) (rest : List (HloOp τ sig₂ Val)) : Prop :=
  ∀ (V₁ : Valuation τ sig₁ Val) (V₂ : Valuation τ sig₂ Val), Agree P V₁ V₂ →
    ∃ V₂' : Valuation τ sig₂ Val, Agree Q (after ops V₁) V₂' ∧ after ops' V₂ = after rest V₂'

namespace SimPre

variable {P P' Q : List (Ref sig₁ .tc × Ref sig₂ .tc)} {ops : List (HloOp τ sig₁ Val)} {ops' rest : List (HloOp τ sig₂ Val)}

/-- The short line is done: keep the pairs wanted; the other line is left as it stands. -/
theorem done (hQ : Q ⊆ P) : SimPre (τ := τ) (Val := Val) P [] ops' Q ops' := fun _ V₂ h => ⟨V₂, h.mono hQ, rfl⟩

/-- One operation on each side, compared as two lines of one operation, then the rest. -/
theorem step {op : HloOp τ sig₁ Val} {op' : HloOp τ sig₂ Val} (h1 : Sim P [op] [op'] P')
    (k : SimPre P' ops ops' Q rest) : SimPre P (op :: ops) (op' :: ops') Q rest :=
  fun V₁ V₂ h => k _ _ (h1 V₁ V₂ h)

/-- An operation of the short line with no counterpart, writing a buffer no listed pair names. -/
theorem skipL {op : HloOp τ sig₁ Val} {y : Ref sig₁ .tc} (hw : op.writes = {Proc.devRef .tc y}) (hy : y ∉ P.map Prod.fst)
    (k : SimPre P ops ops' Q rest) : SimPre P (op :: ops) ops' Q rest := fun V₁ V₂ h => k _ _ (h.writeL hw hy)

end SimPre

/-- No operation of the line writes a buffer of `K`. -/
def Keeps (K : List (Ref sig₁ .tc)) (ops : List (HloOp τ sig₁ Val)) : Prop :=
  ∀ op ∈ ops, ∀ r ∈ K, Proc.devRef (τ := τ) .tc r ∉ op.writes

namespace Keeps

variable {K : List (Ref sig₁ .tc)} {ops : List (HloOp τ sig₁ Val)}

theorem nil : Keeps (τ := τ) (Val := Val) K ([] : List (HloOp τ sig₁ Val)) := fun _ h => absurd h List.not_mem_nil

/-- An operation writing one buffer, which is not of `K`, in front of a line that keeps `K`. -/
theorem cons {op : HloOp τ sig₁ Val} {y : Ref sig₁ .tc} (hw : op.writes = {Proc.devRef .tc y}) (hy : y ∉ K)
    (k : Keeps K ops) : Keeps K (op :: ops) := fun o ho r hr => by
  rcases List.mem_cons.mp ho with rfl | ho
  · rw [hw, Finset.mem_singleton]
    exact devRef_ne_of_ne fun e => hy (e ▸ hr)
  · exact k o ho r hr

/-- A kept buffer holds after the line what it held before. -/
theorem after_eq (h : Keeps K ops) {r : Ref sig₁ .tc} (hr : r ∈ K) (V : Valuation τ sig₁ Val) :
    after ops V (Proc.devRef .tc r) = V (Proc.devRef .tc r) :=
  after_of_forall_not_mem ops V fun op hop => h op hop r hr

end Keeps

/-- Both lines done, every pair kept. -/
theorem Sim.refl {P : List (Ref sig₁ .tc × Ref sig₂ .tc)} : Sim (τ := τ) (Val := Val) P [] [] P := Sim.done (List.Subset.refl P)

/-- One step of `SimPre`: the two operations at the heads of the lines are the same builder over paired operands. -/
macro "host_step" : tactic =>
  `(tactic| (apply SimPre.step
             on_goal 1 => first
               | exact Sim.nullary HEq.rfl (by decide) (by decide) Sim.refl
               | exact Sim.unary (by decide) rfl rfl HEq.rfl (by decide) (by decide) Sim.refl
               | exact Sim.reshape (by decide) rfl rfl (by decide) (by decide) Sim.refl
               | exact Sim.binary (by decide) (by decide) rfl rfl rfl HEq.rfl (by decide) (by decide) Sim.refl
               | exact Sim.ternary (by decide) (by decide) (by decide) rfl rfl rfl rfl HEq.rfl (by decide) (by decide) Sim.refl))

/-- The short line's head has no counterpart. -/
macro "host_skipL" : tactic => `(tactic| refine SimPre.skipL rfl (by decide) ?_)

/-- The short line is done; the pairs of the statement are among those gathered. -/
macro "host_done" : tactic => `(tactic| exact SimPre.done (by decide))

/-- One step of `Keeps`. -/
macro "keeps_step" : tactic => `(tactic| refine Keeps.cons rfl (by decide) ?_)

end Idealize.ShloMosaic.StableHlo
-- ==== Proof.HostLayer1.lean ====
import proofs.«411832_j70755291234320_1_alg».proof.Proof.LibHostSteps
import proofs.«411832_j70755291234320_1_alg».proof.Proof.RefRun
import proofs.«411832_j70755291234320_1_alg».proof.Proof.Gen.KernelIdeal.Launch

/-!
# The first layer's host operations, side by side

After its first matrix product the kernel program runs, on the host, the edge mixing of a graph convolution:
self loops appended to the edge list, the in-degree of every node by a scatter of ones, its power −1/2 where
positive, the product of the two end points' factors per edge, the gathered rows scaled by it and scattered back
to their targets, and the bias. The reference runs the very same operations, with its own matrix product sitting
in the middle of them. The two lines are stepped in lockstep here, stretch by stretch as the kernel program cuts
them, the reference's line consumed from its beginning; what crosses a cut is listed as pairs of buffers.
-/

set_option maxRecDepth 16384

noncomputable section

namespace Cert.Bridge

open Idealize.ShloMosaic Idealize.ShloMosaic.StableHlo

variable {F : FTy → Type} [FloatOps F]

/-- The reference's whole line of host operations. -/
abbrev refOps : List (HloOp Topo.v7x Cert.ReferenceIdeal.sig (Elt F)) := Cert.ReferenceIdeal.ValueP.ops (F := F)

/-- The argument arrays, paired by position. -/
abbrev args : List (Ref Cert.KernelIdeal.sig .tc × Ref Cert.ReferenceIdeal.sig .tc) :=
  [(Cert.KernelIdeal.main_arg0, Cert.ReferenceIdeal.main_arg0), (Cert.KernelIdeal.main_arg1, Cert.ReferenceIdeal.main_arg1),
   (Cert.KernelIdeal.main_arg2, Cert.ReferenceIdeal.main_arg2), (Cert.KernelIdeal.main_arg3, Cert.ReferenceIdeal.main_arg3),
   (Cert.KernelIdeal.main_arg4, Cert.ReferenceIdeal.main_arg4), (Cert.KernelIdeal.main_arg5, Cert.ReferenceIdeal.main_arg5),
   (Cert.KernelIdeal.main_arg6, Cert.ReferenceIdeal.main_arg6)]

/-- After the edge lists, the degrees, their mask and their power: sources, targets, the mask, the power, the zero. -/
abbrev pairs1a : List (Ref Cert.KernelIdeal.sig .tc × Ref Cert.ReferenceIdeal.sig .tc) :=
  (Cert.KernelIdeal.main_v6, Cert.ReferenceIdeal.main_v5) :: (Cert.KernelIdeal.main_v7, Cert.ReferenceIdeal.main_v6) ::
  (Cert.KernelIdeal.main_v13, Cert.ReferenceIdeal.main_v12) :: (Cert.KernelIdeal.main_v15, Cert.ReferenceIdeal.main_v14) ::
  (Cert.KernelIdeal.main_cst_3, Cert.ReferenceIdeal.main_cst_3) :: args

/-- After the masked power: sources, targets, the per-node factor. -/
abbrev pairs1b : List (Ref Cert.KernelIdeal.sig .tc × Ref Cert.ReferenceIdeal.sig .tc) :=
  (Cert.KernelIdeal.main_v6, Cert.ReferenceIdeal.main_v5) :: (Cert.KernelIdeal.main_v7, Cert.ReferenceIdeal.main_v6) ::
  (Cert.KernelIdeal.main_v16, Cert.ReferenceIdeal.main_v15) :: args

/-- After the per-edge factor: sources, targets, the factor. -/
abbrev pairs1c : List (Ref Cert.KernelIdeal.sig .tc × Ref Cert.ReferenceIdeal.sig .tc) :=
  (Cert.KernelIdeal.main_v6, Cert.ReferenceIdeal.main_v5) :: (Cert.KernelIdeal.main_v7, Cert.ReferenceIdeal.main_v6) ::
  (Cert.KernelIdeal.main_v31, Cert.ReferenceIdeal.main_v30) :: args

/-- After the first layer: its result. -/
abbrev pairs1d : List (Ref Cert.KernelIdeal.sig .tc × Ref Cert.ReferenceIdeal.sig .tc) :=
  (Cert.KernelIdeal.main_v47, Cert.ReferenceIdeal.main_v47) :: args

set_option maxHeartbeats 1000000 in
theorem layer1a : SimPre (τ := Topo.v7x) args (Cert.KernelIdeal.Gen.hostOps1 (F := F)) (refOps (F := F)) pairs1a (List.drop 20 (refOps (F := F))) := by
  repeat host_step
  host_done

set_option maxHeartbeats 1000000 in
theorem layer1b : SimPre (τ := Topo.v7x) pairs1a (Cert.KernelIdeal.Gen.hostOps1_1 (F := F)) (List.drop 20 (refOps (F := F))) pairs1b (List.drop 23 (refOps (F := F))) := by
  repeat host_step
  host_done

set_option maxHeartbeats 1000000 in
theorem layer1c : SimPre (τ := Topo.v7x) pairs1b (List.take 19 (Cert.KernelIdeal.Gen.hostOps1_2 (F := F))) (List.drop 23 (refOps (F := F))) pairs1c (List.drop 42 (refOps (F := F))) := by
  repeat host_step
  host_done

set_option maxHeartbeats 1000000 in
theorem layer1d : SimPre (τ := Topo.v7x) ((Cert.KernelIdeal.main_v0, Cert.ReferenceIdeal.main_v31) :: pairs1c)
    (List.drop 19 (Cert.KernelIdeal.Gen.hostOps1_2 (F := F))) (List.drop 43 (refOps (F := F))) pairs1d (List.drop 62 (refOps (F := F))) := by
  repeat host_step
  host_done

/-- The first product's result and its two factors are written by none of these operations. -/
abbrev kept1 : List (Ref Cert.KernelIdeal.sig .tc) := [Cert.KernelIdeal.main_v0, Cert.KernelIdeal.main_arg1, Cert.KernelIdeal.main_arg2]

theorem keeps1a : Keeps (τ := Topo.v7x) kept1 (Cert.KernelIdeal.Gen.hostOps1 (F := F)) := by
  repeat keeps_step
  exact Keeps.nil
theorem keeps1b : Keeps (τ := Topo.v7x) kept1 (Cert.KernelIdeal.Gen.hostOps1_1 (F := F)) := by
  repeat keeps_step
  exact Keeps.nil
theorem keeps1c : Keeps (τ := Topo.v7x) kept1 (List.take 19 (Cert.KernelIdeal.Gen.hostOps1_2 (F := F))) := by
  repeat keeps_step
  exact Keeps.nil

end Cert.Bridge

end
-- ==== Proof.Spec.lean ====
import Idealize.ShloMosaic.PureOps.Ideal
import Idealize.ShloMosaic.Lib.ValueIdx

/-!
# The three array functions the kernel's launches compute

A two-layer graph convolution followed by a row lookup. Each layer multiplies the node features by a weight
matrix and then mixes rows along the edges; the mixing is the same list of host operations in both programs, so
only the product needs a name here. The lookup takes row `input[b, l]` of the second layer's result.

`mm` is the matrix product as a sum over the inner axis on the extended reals; `pick` is the row lookup as the
kernel computes it, a sum of rows each multiplied by an indicator, so that a row number that names no row of the
table yields zero.
-/

noncomputable section

namespace Cert.Spec

open Idealize.ShloMosaic Idealize.ShloMosaic.ValueIdx

/-- The product of an `R × K` by a `K × C` matrix: entry `(r, c)` is the sum over `k` of `a (r, k) * b (k, c)`. -/
def mm (R K C : Nat) (a : (⟨2, ![R, K]⟩ : Shape).Idx → EReal) (b : (⟨2, ![K, C]⟩ : Shape).Idx → EReal) :
    (⟨2, ![R, C]⟩ : Shape).Idx → EReal :=
  fun i => ∑ k : Fin K, a (ix2 (⟨(i 0).val, idx2_lt0 i⟩ : Fin R) k) * b (ix2 k (⟨(i 1).val, idx2_lt1 i⟩ : Fin C))

/-- Row `idx r` of a table of `N` rows, for each of `M` index words read unsigned; zero where the word names no row.
    This is what a sum over all rows of `[idx r = n] * tbl (n, d)` amounts to: at most one indicator is one. -/
def pick (M N D : Nat) (idx : (⟨2, ![M, 1]⟩ : Shape).Idx → BitVec 32) (tbl : (⟨2, ![N, D]⟩ : Shape).Idx → EReal) :
    (⟨2, ![M, D]⟩ : Shape).Idx → EReal :=
  fun i => if h : (idx (ix2 (⟨(i 0).val, idx2_lt0 i⟩ : Fin M) (0 : Fin 1))).toNat < N
    then tbl (ix2 (⟨_, h⟩ : Fin N) (⟨(i 1).val, idx2_lt1 i⟩ : Fin D)) else 0

end Cert.Spec

end
-- ==== Proof.MatmulRegions.lean ====
import proofs.«411832_j70755291234320_1_alg».proof.Proof.Gen.KernelIdeal.Frame
import proofs.«411832_j70755291234320_1_alg».proof.Proof.Spec
import Idealize.ShloMosaic.Lib.Pipeline.Value
import Idealize.ShloMosaic.Lib.ValueIdx
import Idealize.ShloMosaic.PureOps.Ideal.Laws

/-!
# What the two matrix-product regions leave in their output arrays

Each region walks 20 row blocks of 5000 rows. At a point the body takes the whole row block of the left factor and
the whole right factor, and stores their product into the matching row block of the output. Read at an index, the
stored block is the sum over the inner axis of the products of the entries; the left block's row `p` at point `t`
is row `5000 t + p` of the left factor, and the 20 row blocks tile the output. So the output array ends holding
`Cert.Spec.mm` of the two arrays as the region finds them.
-/

noncomputable section

namespace Cert.KernelIdeal.Regions

open Idealize.ShloMosaic Idealize.ShloMosaic.TcCoe Cert.KernelIdeal Cert.KernelIdeal.Gen
open Idealize.ShloMosaic.ValueIdx

variable (V : (c : Dev nD) → (b : Ref sig .tc) → Buf (Elt Ideal) ((c : Thread nD τ).loc b))

private theorem zero_off : (![0, 0] : Fin 2 → Nat) = fun _ => 0 := funext fun a => by fin_cases a <;> rfl

/-! ## The first product's contraction: where each factor of a term sits -/

private theorem lhs0_0 (j : S5000x128.Idx) (k : dot_S5000x64_S64x128_S5000x128_1_0_0_1_n_n.contr.Idx) :
    (dot_S5000x64_S64x128_S5000x128_1_0_0_1_n_n.lhsIdx j k 0 : ℕ) = j 0 := by
  simp [DotDims.lhsIdx, dot_S5000x64_S64x128_S5000x128_1_0_0_1_n_n]; rfl
private theorem lhs0_1 (j : S5000x128.Idx) (k : dot_S5000x64_S64x128_S5000x128_1_0_0_1_n_n.contr.Idx) :
    (dot_S5000x64_S64x128_S5000x128_1_0_0_1_n_n.lhsIdx j k 1 : ℕ) = k ⟨0, by decide⟩ := by
  simp [DotDims.lhsIdx, dot_S5000x64_S64x128_S5000x128_1_0_0_1_n_n]; rfl
private theorem rhs0_0 (j : S5000x128.Idx) (k : dot_S5000x64_S64x128_S5000x128_1_0_0_1_n_n.contr.Idx) :
    (dot_S5000x64_S64x128_S5000x128_1_0_0_1_n_n.rhsIdx j k 0 : ℕ) = k ⟨0, by decide⟩ := by
  simp [DotDims.rhsIdx, dot_S5000x64_S64x128_S5000x128_1_0_0_1_n_n]; rfl
private theorem rhs0_1 (j : S5000x128.Idx) (k : dot_S5000x64_S64x128_S5000x128_1_0_0_1_n_n.contr.Idx) :
    (dot_S5000x64_S64x128_S5000x128_1_0_0_1_n_n.rhsIdx j k 1 : ℕ) = j 1 := by
  simp [DotDims.rhsIdx, dot_S5000x64_S64x128_S5000x128_1_0_0_1_n_n]; rfl

/-- The body's result at row `p`, column `q` of its block: the sum over the inner axis of the products of the
    left block's row `p` and the right factor's column `q` (the narrowing of the factors changes no value). -/
private theorem pay0_apply (x0 : Vec Ideal S5000x64 .f32) (x1 : Vec Ideal S64x128 .f32) (p : Fin 5000) (q : Fin 128) :
    k0_pay1 (F := Ideal) x0 x1 (ix2 p q) = ∑ k : Fin 64, x0 (ix2 p k) * x1 (ix2 k q) := by
  unfold k0_pay1
  show FloatOps.matmul dot_S5000x64_S64x128_S5000x128_1_0_0_1_n_n none _ _
    (constant (F := Ideal) S5000x128 .f32 0x00000000#32) (ix2 p q) = _
  rw [Ideal.matmul_constant_zero_apply,
    ← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have l2 : dot_S5000x64_S64x128_S5000x128_1_0_0_1_n_n.lhsIdx (ix2 p q) ((contrEquiv1 _ 64 rfl rfl).symm k) = ix2 p k := by
    funext ax; apply Fin.ext
    match ax with
    | ⟨0, _⟩ => exact lhs0_0 _ _
    | ⟨1, _⟩ => exact (lhs0_1 _ _).trans hk
  have r2 : dot_S5000x64_S64x128_S5000x128_1_0_0_1_n_n.rhsIdx (ix2 p q) ((contrEquiv1 _ 64 rfl rfl).symm k) = ix2 k q := by
    funext ax; apply Fin.ext
    match ax with
    | ⟨0, _⟩ => exact (rhs0_0 _ _).trans hk
    | ⟨1, _⟩ => exact rhs0_1 _ _
  rw [l2, r2]
  rfl

/-- The same at any index of the block, its coordinates rebuilt as the product's row and column. -/
private theorem pay0_at (x0 : Vec Ideal S5000x64 .f32) (x1 : Vec Ideal S64x128 .f32) (j : S5000x128.Idx) :
    k0_pay1 (F := Ideal) x0 x1 j
      = ∑ k : Fin 64, x0 (ix2 (⟨(j 0).val, idx2_lt0 j⟩ : Fin 5000) k) * x1 (ix2 k (⟨(j 1).val, idx2_lt1 j⟩ : Fin 128)) := by
  obtain ⟨p, q, rfl⟩ : ∃ (p : Fin 5000) (q : Fin 128), j = ix2 p q := ⟨j 0, j 1, eq_ix2 j⟩
  exact pay0_apply x0 x1 p q

/-! ## From the first product's row blocks to the whole product -/

/-- The index maps over the 20 points: the row blocks of the left factor and of the product move together down
    the rows, one block a point; the right factor is one block, the whole matrix, at every point. -/
private theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left factor's block at point `t` is rows `5000 t … 5000 t + 4999` of the left factor. -/
private theorem rows_block0 (c : Dev nD) (t : Fin cfg0.N) (x : S5000x64.Idx) (i : S100000x64.Idx)
    (h0 : (i 0).val = 5000 * t.val + (x 0).val) (h1 : (i 1).val = (x 1).val) :
    (iblk0 (F := Ideal) V c 0 t : Vec Ideal S5000x64 .f32) x = (V c main_arg1 : S100000x64.Idx → Elt Ideal .f32) i := by
  obtain ⟨e00, e01, -, -, -, -⟩ := idx0 t
  unfold iblk0
  rw [View.read_apply]
  show V c main_arg1 _ = V c main_arg1 _
  congr 1
  funext a
  apply Fin.ext
  match a with
  | ⟨0, _⟩ => show win0_0.index t (0 : Fin 2) * 5000 + 1 * (x 0).val = (i 0).val; rw [e00, h0]; omega
  | ⟨1, _⟩ => show win0_0.index t (1 : Fin 2) * 64 + 1 * (x 1).val = (i 1).val; rw [e01, h1]; omega

/-- The right factor's block at every point is the right factor. -/
private theorem whole_block0 (c : Dev nD) (t : Fin cfg0.N) (x : S64x128.Idx) :
    (iblk0 (F := Ideal) V c 1 t : Vec Ideal S64x128 .f32) x = (V c main_arg2 : S64x128.Idx → Elt Ideal .f32) x := by
  obtain ⟨-, -, e10, e11, -, -⟩ := idx0 t
  unfold iblk0
  rw [View.read_apply]
  show V c main_arg2 _ = V c main_arg2 _
  congr 1
  funext a
  apply Fin.ext
  match a with
  | ⟨0, _⟩ => show win0_1.index t (0 : Fin 2) * 64 + 1 * (x 0).val = (x 0).val; rw [e10]; omega
  | ⟨1, _⟩ => show win0_1.index t (1 : Fin 2) * 128 + 1 * (x 1).val = (x 1).val; rw [e11]; omega

/-- What point `t` writes back is block `t` of the product of the two arrays as the region finds them. -/
private theorem flushed0 (c : Dev nD) (t : Fin cfg0.N) :
    (dat0 (F := Ideal) V c).flushed 2 t
      = ((cfg0.win 2).blk t).view.read (Elt Ideal) (Cert.Spec.mm 100000 64 128 (V c main_arg1) (V c main_arg2)) := by
  show (cfg0.win 2).cut (grid0.coords t) ((dat0 (F := Ideal) V c).after 2 t) = _
  rw [after0_2]
  unfold out0_2
  rw [View.canon_unit_zero zero_off]
  simp only [View.ld_unit_zero (S := S5000x64) zero_off, View.ld_unit_zero (S := S64x128) zero_off]
  obtain ⟨-, -, -, -, e20, e21⟩ := idx0 t
  funext j
  show k0_pay1 (F := Ideal) (iblk0 V c 0 t) (iblk0 V c 1 t) j
    = Cert.Spec.mm 100000 64 128 (V c main_arg1) (V c main_arg2) (((cfg0.win 2).blk t).view.emb j)
  rw [pay0_at]
  refine Finset.sum_congr rfl fun k _ => ?_
  congr 1
  · refine rows_block0 V c t _ _ ?_ rfl
    show win0_2.index t (0 : Fin 2) * 5000 + 1 * (j 0).val = 5000 * t.val + (j 0).val
    rw [e20]; omega
  · refine (whole_block0 V c t _).trans (congrArg (V c main_arg2 : S64x128.Idx → Elt Ideal .f32) ?_)
    funext a
    apply Fin.ext
    match a with
    | ⟨0, _⟩ => rfl
    | ⟨1, _⟩ => show (j 1).val = win0_2.index t (1 : Fin 2) * 128 + 1 * (j 1).val; rw [e21]; omega

/-- An index of the product is in point `t`'s block iff each coordinate is in the block's range on its axis. -/
private theorem mem_blk0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v0).slice (win0_2.rect t)).set ↔ _
  rw [View.set_slice_whole, Rect.mem_set_unit]
  exact Iff.rfl

/-- Every row of the product is in some point's block: row `r` in that of point `r / 5000`. -/
private theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_2 _, ?_⟩
  obtain ⟨-, -, -, -, e20, e21⟩ := idx0 ⟨(i 0).val / 5000, by rw [hN]; omega⟩
  rw [mem_blk0]
  intro a
  match a with
  | ⟨0, _⟩ =>
    show win0_2.index _ (0 : Fin 2) * 5000 ≤ (i 0).val ∧ (i 0).val < win0_2.index _ (0 : Fin 2) * 5000 + 5000
    rw [e20]; show (i 0).val / 5000 * 5000 ≤ (i 0).val ∧ (i 0).val < (i 0).val / 5000 * 5000 + 5000; omega
  | ⟨1, _⟩ =>
    show win0_2.index _ (1 : Fin 2) * 128 ≤ (i 1).val ∧ (i 1).val < win0_2.index _ (1 : Fin 2) * 128 + 128
    rw [e21]; omega

/-- The first region leaves the product of the node features by the first weight matrix. -/
theorem arr0 (c : Dev nD) :
    (dat0 (F := Ideal) V c).arrAt 2 cfg0.N = Cert.Spec.mm 100000 64 128 (V c main_arg1) (V c main_arg2) :=
  (dat0 (F := Ideal) V c).arrAt_eq_of_cover 2 (Cert.Spec.mm 100000 64 128 (V c main_arg1) (V c main_arg2))
    (fun t _ => flushed0 V c t) cover0

/-! ## The second product's contraction: where each factor of a term sits -/

private theorem lhs1_0 (j : S5000x64.Idx) (k : dot_S5000x128_S128x64_S5000x64_1_0_0_1_n_n.contr.Idx) :
    (dot_S5000x128_S128x64_S5000x64_1_0_0_1_n_n.lhsIdx j k 0 : ℕ) = j 0 := by
  simp [DotDims.lhsIdx, dot_S5000x128_S128x64_S5000x64_1_0_0_1_n_n]; rfl
private theorem lhs1_1 (j : S5000x64.Idx) (k : dot_S5000x128_S128x64_S5000x64_1_0_0_1_n_n.contr.Idx) :
    (dot_S5000x128_S128x64_S5000x64_1_0_0_1_n_n.lhsIdx j k 1 : ℕ) = k ⟨0, by decide⟩ := by
  simp [DotDims.lhsIdx, dot_S5000x128_S128x64_S5000x64_1_0_0_1_n_n]; rfl
private theorem rhs1_0 (j : S5000x64.Idx) (k : dot_S5000x128_S128x64_S5000x64_1_0_0_1_n_n.contr.Idx) :
    (dot_S5000x128_S128x64_S5000x64_1_0_0_1_n_n.rhsIdx j k 0 : ℕ) = k ⟨0, by decide⟩ := by
  simp [DotDims.rhsIdx, dot_S5000x128_S128x64_S5000x64_1_0_0_1_n_n]; rfl
private theorem rhs1_1 (j : S5000x64.Idx) (k : dot_S5000x128_S128x64_S5000x64_1_0_0_1_n_n.contr.Idx) :
    (dot_S5000x128_S128x64_S5000x64_1_0_0_1_n_n.rhsIdx j k 1 : ℕ) = j 1 := by
  simp [DotDims.rhsIdx, dot_S5000x128_S128x64_S5000x64_1_0_0_1_n_n]; rfl

/-- The body's result at row `p`, column `q` of its block: the sum over the inner axis of the products of the
    left block's row `p` and the right factor's column `q` (the narrowing of the factors and
    the recast of the left block to its own shape change no value). -/
private theorem pay1_apply (x0 : Vec Ideal S5000x128 .f32) (x1 : Vec Ideal S128x64 .f32) (p : Fin 5000) (q : Fin 64) :
    k1_pay1 (F := Ideal) x0 x1 (ix2 p q) = ∑ k : Fin 128, x0 (ix2 p k) * x1 (ix2 k q) := by
  unfold k1_pay1
  show FloatOps.matmul dot_S5000x128_S128x64_S5000x64_1_0_0_1_n_n none _ _
    (constant (F := Ideal) S5000x64 .f32 0x00000000#32) (ix2 p q) = _
  rw [Ideal.matmul_constant_zero_apply,
    ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have l2 : dot_S5000x128_S128x64_S5000x64_1_0_0_1_n_n.lhsIdx (ix2 p q) ((contrEquiv1 _ 128 rfl rfl).symm k) = ix2 p k := by
    funext ax; apply Fin.ext
    match ax with
    | ⟨0, _⟩ => exact lhs1_0 _ _
    | ⟨1, _⟩ => exact (lhs1_1 _ _).trans hk
  have r2 : dot_S5000x128_S128x64_S5000x64_1_0_0_1_n_n.rhsIdx (ix2 p q) ((contrEquiv1 _ 128 rfl rfl).symm k) = ix2 k q := by
    funext ax; apply Fin.ext
    match ax with
    | ⟨0, _⟩ => exact (rhs1_0 _ _).trans hk
    | ⟨1, _⟩ => exact rhs1_1 _ _
  rw [l2, r2, shapeCast_self]
  rfl

/-- The same at any index of the block, its coordinates rebuilt as the product's row and column. -/
private theorem pay1_at (x0 : Vec Ideal S5000x128 .f32) (x1 : Vec Ideal S128x64 .f32) (j : S5000x64.Idx) :
    k1_pay1 (F := Ideal) x0 x1 j
      = ∑ k : Fin 128, x0 (ix2 (⟨(j 0).val, idx2_lt0 j⟩ : Fin 5000) k) * x1 (ix2 k (⟨(j 1).val, idx2_lt1 j⟩ : Fin 64)) := by
  obtain ⟨p, q, rfl⟩ : ∃ (p : Fin 5000) (q : Fin 64), j = ix2 p q := ⟨j 0, j 1, eq_ix2 j⟩
  exact pay1_apply x0 x1 p q

/-! ## From the second product's row blocks to the whole product -/

/-- The index maps over the 20 points: the row blocks of the left factor and of the product move together down
    the rows, one block a point; the right factor is one block, the whole matrix, at every point. -/
private theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left factor's block at point `t` is rows `5000 t … 5000 t + 4999` of the left factor. -/
private theorem rows_block1 (c : Dev nD) (t : Fin cfg1.N) (x : S5000x128.Idx) (i : S100000x128.Idx)
    (h0 : (i 0).val = 5000 * t.val + (x 0).val) (h1 : (i 1).val = (x 1).val) :
    (iblk1 (F := Ideal) V c 0 t : Vec Ideal S5000x128 .f32) x = (V c main_v47 : S100000x128.Idx → Elt Ideal .f32) i := by
  obtain ⟨e00, e01, -, -, -, -⟩ := idx1 t
  unfold iblk1
  rw [View.read_apply]
  show V c main_v47 _ = V c main_v47 _
  congr 1
  funext a
  apply Fin.ext
  match a with
  | ⟨0, _⟩ => show win1_0.index t (0 : Fin 2) * 5000 + 1 * (x 0).val = (i 0).val; rw [e00, h0]; omega
  | ⟨1, _⟩ => show win1_0.index t (1 : Fin 2) * 128 + 1 * (x 1).val = (i 1).val; rw [e01, h1]; omega

/-- The right factor's block at every point is the right factor. -/
private theorem whole_block1 (c : Dev nD) (t : Fin cfg1.N) (x : S128x64.Idx) :
    (iblk1 (F := Ideal) V c 1 t : Vec Ideal S128x64 .f32) x = (V c main_arg4 : S128x64.Idx → Elt Ideal .f32) x := by
  obtain ⟨-, -, e10, e11, -, -⟩ := idx1 t
  unfold iblk1
  rw [View.read_apply]
  show V c main_arg4 _ = V c main_arg4 _
  congr 1
  funext a
  apply Fin.ext
  match a with
  | ⟨0, _⟩ => show win1_1.index t (0 : Fin 2) * 128 + 1 * (x 0).val = (x 0).val; rw [e10]; omega
  | ⟨1, _⟩ => show win1_1.index t (1 : Fin 2) * 64 + 1 * (x 1).val = (x 1).val; rw [e11]; omega

/-- What point `t` writes back is block `t` of the product of the two arrays as the region finds them. -/
private theorem flushed1 (c : Dev nD) (t : Fin cfg1.N) :
    (dat1 (F := Ideal) V c).flushed 2 t
      = ((cfg1.win 2).blk t).view.read (Elt Ideal) (Cert.Spec.mm 100000 128 64 (V c main_v47) (V c main_arg4)) := by
  show (cfg1.win 2).cut (grid1.coords t) ((dat1 (F := Ideal) V c).after 2 t) = _
  rw [after1_2]
  unfold out1_2
  rw [View.canon_unit_zero zero_off]
  simp only [View.ld_unit_zero (S := S5000x128) zero_off, View.ld_unit_zero (S := S128x64) zero_off]
  obtain ⟨-, -, -, -, e20, e21⟩ := idx1 t
  funext j
  show k1_pay1 (F := Ideal) (iblk1 V c 0 t) (iblk1 V c 1 t) j
    = Cert.Spec.mm 100000 128 64 (V c main_v47) (V c main_arg4) (((cfg1.win 2).blk t).view.emb j)
  rw [pay1_at]
  refine Finset.sum_congr rfl fun k _ => ?_
  congr 1
  · refine rows_block1 V c t _ _ ?_ rfl
    show win1_2.index t (0 : Fin 2) * 5000 + 1 * (j 0).val = 5000 * t.val + (j 0).val
    rw [e20]; omega
  · refine (whole_block1 V c t _).trans (congrArg (V c main_arg4 : S128x64.Idx → Elt Ideal .f32) ?_)
    funext a
    apply Fin.ext
    match a with
    | ⟨0, _⟩ => rfl
    | ⟨1, _⟩ => show (j 1).val = win1_2.index t (1 : Fin 2) * 64 + 1 * (j 1).val; rw [e21]; omega

/-- An index of the product is in point `t`'s block iff each coordinate is in the block's range on its axis. -/
private theorem mem_blk1 (t : Fin cfg1.N) (i : S100000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v48).slice (win1_2.rect t)).set ↔ _
  rw [View.set_slice_whole, Rect.mem_set_unit]
  exact Iff.rfl

/-- Every row of the product is in some point's block: row `r` in that of point `r / 5000`. -/
private theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_2 _, ?_⟩
  obtain ⟨-, -, -, -, e20, e21⟩ := idx1 ⟨(i 0).val / 5000, by rw [hN]; omega⟩
  rw [mem_blk1]
  intro a
  match a with
  | ⟨0, _⟩ =>
    show win1_2.index _ (0 : Fin 2) * 5000 ≤ (i 0).val ∧ (i 0).val < win1_2.index _ (0 : Fin 2) * 5000 + 5000
    rw [e20]; show (i 0).val / 5000 * 5000 ≤ (i 0).val ∧ (i 0).val < (i 0).val / 5000 * 5000 + 5000; omega
  | ⟨1, _⟩ =>
    show win1_2.index _ (1 : Fin 2) * 64 ≤ (i 1).val ∧ (i 1).val < win1_2.index _ (1 : Fin 2) * 64 + 64
    rw [e21]; omega

/-- The second region leaves the product of the array it finds as its left factor by the second weight matrix. -/
theorem arr1 (c : Dev nD) :
    (dat1 (F := Ideal) V c).arrAt 2 cfg1.N = Cert.Spec.mm 100000 128 64 (V c main_v47) (V c main_arg4) :=
  (dat1 (F := Ideal) V c).arrAt_eq_of_cover 2 (Cert.Spec.mm 100000 128 64 (V c main_v47) (V c main_arg4))
    (fun t _ => flushed1 V c t) cover1

end Cert.KernelIdeal.Regions

end
-- ==== Proof.RefReads.lean ====
import proofs.«411832_j70755291234320_1_alg».proof.ReferenceIdeal
import proofs.«411832_j70755291234320_1_alg».proof.Pre_finite_inputs
import proofs.«411832_j70755291234320_1_alg».proof.Proof.Gen.ReferenceIdeal
import proofs.«411832_j70755291234320_1_alg».proof.Proof.Gen.Pre_finite_inputs
import proofs.«411832_j70755291234320_1_alg».proof.Proof.Spec
import Idealize.ShloMosaic.PureOps.Ideal.Laws
import Idealize.ShloMosaic.Lib.ValueIdx
import Idealize.ShloMosaic.Lib.Pipeline.Value
import Idealize.ShloMosaic.Lib.StableHlo.Predicate
import Idealize.ShloMosaic.Lib.ReduceAll

noncomputable section

namespace Cert.ReferenceIdeal.Reads

open Idealize.ShloMosaic Idealize.ShloMosaic.ValueIdx Cert.ReferenceIdeal Cert.ReferenceIdeal.Facts₀ Cert.ReferenceIdeal.Facts

/-! ### The index maps of the 100000 × 64 by 64 × 128 product, coordinate by coordinate -/

theorem lhs_d0_0 (i : S100000x128.Idx) (q : dot_S100000x64_S64x128_S100000x128_1_0_0_1_n_n.contr.Idx) :
    (dot_S100000x64_S64x128_S100000x128_1_0_0_1_n_n.lhsIdx i q 0).val = (i 0).val := by
  unfold DotDims.lhsIdx
  rw [dif_neg (show ¬(0 : Fin S100000x64.rank) ∈ dot_S100000x64_S64x128_S100000x128_1_0_0_1_n_n.lhsBatch by decide), dif_pos (show (0 : Fin S100000x64.rank) ∈ dot_S100000x64_S64x128_S100000x128_1_0_0_1_n_n.lhsNonContracting by decide)]
  rfl
theorem lhs_d0_1 (i : S100000x128.Idx) (q : dot_S100000x64_S64x128_S100000x128_1_0_0_1_n_n.contr.Idx) :
    (dot_S100000x64_S64x128_S100000x128_1_0_0_1_n_n.lhsIdx i q 1).val = (q ⟨0, by decide⟩).val :=
  dot_S100000x64_S64x128_S100000x128_1_0_0_1_n_n.lhsIdx_val_of_single rfl i q
theorem rhs_d0_0 (i : S100000x128.Idx) (q : dot_S100000x64_S64x128_S100000x128_1_0_0_1_n_n.contr.Idx) :
    (dot_S100000x64_S64x128_S100000x128_1_0_0_1_n_n.rhsIdx i q 0).val = (q ⟨0, by decide⟩).val :=
  dot_S100000x64_S64x128_S100000x128_1_0_0_1_n_n.rhsIdx_val_of_single rfl i q
theorem rhs_d0_1 (i : S100000x128.Idx) (q : dot_S100000x64_S64x128_S100000x128_1_0_0_1_n_n.contr.Idx) :
    (dot_S100000x64_S64x128_S100000x128_1_0_0_1_n_n.rhsIdx i q 1).val = (i 1).val := by
  unfold DotDims.rhsIdx
  rw [dif_neg (show ¬(1 : Fin S64x128.rank) ∈ dot_S100000x64_S64x128_S100000x128_1_0_0_1_n_n.rhsBatch by decide), dif_pos (show (1 : Fin S64x128.rank) ∈ dot_S100000x64_S64x128_S100000x128_1_0_0_1_n_n.rhsNonContracting by decide)]
  rfl

/-! ### The index maps of the 100000 × 128 by 128 × 64 product, coordinate by coordinate -/

theorem lhs_d1_0 (i : S100000x64.Idx) (q : dot_S100000x128_S128x64_S100000x64_1_0_0_1_n_n.contr.Idx) :
    (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
theorem lhs_d1_1 (i : S100000x64.Idx) (q : dot_S100000x128_S128x64_S100000x64_1_0_0_1_n_n.contr.Idx) :
    (dot_S100000x128_S128x64_S100000x64_1_0_0_1_n_n.lhsIdx i q 1).val = (q ⟨0, by decide⟩).val :=
  dot_S100000x128_S128x64_S100000x64_1_0_0_1_n_n.lhsIdx_val_of_single rfl i q
theorem rhs_d1_0 (i : S100000x64.Idx) (q : dot_S100000x128_S128x64_S100000x64_1_0_0_1_n_n.contr.Idx) :
    (dot_S100000x128_S128x64_S100000x64_1_0_0_1_n_n.rhsIdx i q 0).val = (q ⟨0, by decide⟩).val :=
  dot_S100000x128_S128x64_S100000x64_1_0_0_1_n_n.rhsIdx_val_of_single rfl i q
theorem rhs_d1_1 (i : S100000x64.Idx) (q : dot_S100000x128_S128x64_S100000x64_1_0_0_1_n_n.contr.Idx) :
    (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl

theorem dot0 (a : FVec Ideal S100000x64 .f32) (b : FVec Ideal S64x128 .f32) :
    Host.dotGeneral (F := Ideal) dot_S100000x64_S64x128_S100000x128_1_0_0_1_n_n none a b = Cert.Spec.mm 100000 64 128 a b := by
  funext i
  simp only [Host.dotGeneral]
  rw [Ideal.dotGeneral_apply, ← Equiv.sum_comp (contrEquiv1 dot_S100000x64_S64x128_S100000x128_1_0_0_1_n_n 64 rfl rfl).symm]
  unfold Cert.Spec.mm
  refine Finset.sum_congr rfl fun k _ => ?_
  have hk := contrEquiv1_symm_val dot_S100000x64_S64x128_S100000x128_1_0_0_1_n_n 64 rfl rfl k
  have el : dot_S100000x64_S64x128_S100000x128_1_0_0_1_n_n.lhsIdx i ((contrEquiv1 dot_S100000x64_S64x128_S100000x128_1_0_0_1_n_n 64 rfl rfl).symm k)
      = ix2 (⟨(i 0).val, idx2_lt0 i⟩ : Fin 100000) k := funext fun a => Fin.ext (by
    match a with
    | ⟨0, _⟩ => exact lhs_d0_0 _ _
    | ⟨1, _⟩ => exact (lhs_d0_1 _ _).trans hk)
  have er : dot_S100000x64_S64x128_S100000x128_1_0_0_1_n_n.rhsIdx i ((contrEquiv1 dot_S100000x64_S64x128_S100000x128_1_0_0_1_n_n 64 rfl rfl).symm k)
      = ix2 k (⟨(i 1).val, idx2_lt1 i⟩ : Fin 128) := funext fun a => Fin.ext (by
    match a with
    | ⟨0, _⟩ => exact (rhs_d0_0 _ _).trans hk
    | ⟨1, _⟩ => exact rhs_d0_1 _ _)
  rw [el, er]

theorem dot1 (a : FVec Ideal S100000x128 .f32) (b : FVec Ideal S128x64 .f32) :
    Host.dotGeneral (F := Ideal) dot_S100000x128_S128x64_S100000x64_1_0_0_1_n_n none a b = Cert.Spec.mm 100000 128 64 a b := by
  funext i
  simp only [Host.dotGeneral]
  rw [Ideal.dotGeneral_apply, ← Equiv.sum_comp (contrEquiv1 dot_S100000x128_S128x64_S100000x64_1_0_0_1_n_n 128 rfl rfl).symm]
  unfold Cert.Spec.mm
  refine Finset.sum_congr rfl fun k _ => ?_
  have hk := contrEquiv1_symm_val dot_S100000x128_S128x64_S100000x64_1_0_0_1_n_n 128 rfl rfl k
  have el : dot_S100000x128_S128x64_S100000x64_1_0_0_1_n_n.lhsIdx i ((contrEquiv1 dot_S100000x128_S128x64_S100000x64_1_0_0_1_n_n 128 rfl rfl).symm k)
      = ix2 (⟨(i 0).val, idx2_lt0 i⟩ : Fin 100000) k := funext fun a => Fin.ext (by
    match a with
    | ⟨0, _⟩ => exact lhs_d1_0 _ _
    | ⟨1, _⟩ => exact (lhs_d1_1 _ _).trans hk)
  have er : dot_S100000x128_S128x64_S100000x64_1_0_0_1_n_n.rhsIdx i ((contrEquiv1 dot_S100000x128_S128x64_S100000x64_1_0_0_1_n_n 128 rfl rfl).symm k)
      = ix2 k (⟨(i 1).val, idx2_lt1 i⟩ : Fin 64) := funext fun a => Fin.ext (by
    match a with
    | ⟨0, _⟩ => exact (rhs_d1_0 _ _).trans hk
    | ⟨1, _⟩ => exact rhs_d1_1 _ _)
  rw [el, er]

/-- The reference's last ten operations as one function of the table and the index array. -/
def tail (tbl : FVec Ideal S100000x64 .f32) (inp : IVec S64x200 32) : FVec Ideal S64x200x64 .f32 :=
  Host.gather gather_S100000x64_S64x200x1_S64x200x64_2_0_n_n_0_2_164 tbl
    (broadcastInDim S64x200x1 ![0, 1] bcast_S64x200_S64x200x1_0_1
      (select (cmpi .slt inp (broadcastInDim S64x200 ![] bcast_S_S64x200 (constantI S_ 32 0#32)))
        (addi inp (broadcastInDim S64x200 ![] bcast_S_S64x200 (constantI S_ 32 100000#32))) inp))

/-! ### The row lookup: the start index at `[b, l, 0]`, and the operand index of result `(b, l, d)` -/

/-- Where the index word is not negative the select keeps it, so the start-index array at `[b, l, 0]` is the word at `[b, l]`. -/
theorem startIdx_apply (inp : IVec S64x200 32) (hin : ∀ y, 0 ≤ (inp y).toInt ∧ (inp y).toInt < 100000) (b : Fin 64) (l : Fin 200) :
    (broadcastInDim S64x200x1 ![0, 1] bcast_S64x200_S64x200x1_0_1
      (select (cmpi .slt inp (broadcastInDim S64x200 ![] bcast_S_S64x200 (constantI S_ 32 0#32)))
        (addi inp (broadcastInDim S64x200 ![] bcast_S_S64x200 (constantI S_ 32 100000#32))) inp)) (ix3 b l (0 : Fin 1))
      = inp (ix2 b l) := by
  rw [broadcastInDim_apply _ _ _ _ (ix2 b l) (fun a => by
    match a with
    | ⟨0, _⟩ => exact (if_neg (show ¬(64 : ℕ) = 1 by decide)).symm
    | ⟨1, _⟩ => exact (if_neg (show ¬(200 : ℕ) = 1 by decide)).symm)]
  rw [select_apply]
  have hc : cmpi .slt inp (broadcastInDim S64x200 ![] bcast_S_S64x200 (constantI S_ 32 0#32)) (ix2 b l) = 0#1 := by
    show BitVec.ofBool ((inp (ix2 b l)).slt 0#32) = 0#1
    have hz : (0#32 : BitVec 32).toInt = 0 := by decide
    have hf : (inp (ix2 b l)).slt 0#32 = false := by
      simp only [BitVec.slt, hz, decide_eq_false_iff_not, not_lt]
      exact (hin (ix2 b l)).1
    rw [hf]; rfl
  rw [hc, select_zero]

/-- Operand coordinate 0 of the lookup is the start index read signed and clamped to the last row. -/
theorem opIdx_0 (idx : IVec S64x200x1 32) (b : Fin 64) (l : Fin 200) (d : Fin 64) :
    (gather_S100000x64_S64x200x1_S64x200x64_2_0_n_n_0_2_164.operandIdx (ix3 b l d) idx 0).val = min (idx (ix3 b l (0 : Fin 1))).toInt.toNat 99999 := by
  show gather_S100000x64_S64x200x1_S64x200x64_2_0_n_n_0_2_164.start (ix3 b l d) idx 0 + gather_S100000x64_S64x200x1_S64x200x64_2_0_n_n_0_2_164.batchCoord (ix3 b l d) 0 + gather_S100000x64_S64x200x1_S64x200x64_2_0_n_n_0_2_164.offCoord (ix3 b l d) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin S100000x64.rank) ∈ gather_S100000x64_S64x200x1_S64x200x64_2_0_n_n_0_2_164.startIndexMap from List.mem_singleton.mpr rfl)]
  have hsi : gather_S100000x64_S64x200x1_S64x200x64_2_0_n_n_0_2_164.siIdx (ix3 b l d) ⟨List.idxOf (0 : Fin S100000x64.rank) gather_S100000x64_S64x200x1_S64x200x64_2_0_n_n_0_2_164.startIndexMap,
      List.idxOf_lt_length_iff.2 (List.mem_singleton.mpr rfl)⟩ = ix3 b l (0 : Fin 1) := by
    funext c; refine Fin.ext ?_
    match c with
    | ⟨0, _⟩ => rfl
    | ⟨1, _⟩ => rfl
    | ⟨2, _⟩ => rfl
  rw [hsi]
  rfl

/-- Operand coordinate 1 of the lookup is the result's last coordinate. -/
theorem opIdx_1 (idx : IVec S64x200x1 32) (b : Fin 64) (l : Fin 200) (d : Fin 64) :
    (gather_S100000x64_S64x200x1_S64x200x64_2_0_n_n_0_2_164.operandIdx (ix3 b l d) idx 1).val = d.val := by
  show gather_S100000x64_S64x200x1_S64x200x64_2_0_n_n_0_2_164.start (ix3 b l d) idx 1 + gather_S100000x64_S64x200x1_S64x200x64_2_0_n_n_0_2_164.batchCoord (ix3 b l d) 1 + gather_S100000x64_S64x200x1_S64x200x64_2_0_n_n_0_2_164.offCoord (ix3 b l d) 1 = _
  rw [GatherDims.batchCoord_eq_zero _ _ _ List.not_mem_nil]
  unfold GatherDims.start
  rw [dif_neg (show ¬(1 : Fin S100000x64.rank) ∈ gather_S100000x64_S64x200x1_S64x200x64_2_0_n_n_0_2_164.startIndexMap by decide)]
  unfold GatherDims.offCoord
  rw [dif_pos (show (1 : Fin S100000x64.rank) ∈ gather_S100000x64_S64x200x1_S64x200x64_2_0_n_n_0_2_164.sKept by decide)]
  simp only [Nat.zero_add, Nat.add_zero]
  rfl

/-- The lookup at `(b, l, d)` reads row `n` when the clamped start index is `n`. -/
theorem gather_row (tbl : FVec Ideal S100000x64 .f32) (idx : IVec S64x200x1 32) (b : Fin 64) (l : Fin 200) (d : Fin 64)
    (n : ℕ) (hn : n < 100000) (h : min (idx (ix3 b l (0 : Fin 1))).toInt.toNat 99999 = n) :
    Host.gather gather_S100000x64_S64x200x1_S64x200x64_2_0_n_n_0_2_164 tbl idx (ix3 b l d) = tbl (ix2 (⟨n, hn⟩ : Fin 100000) d) := by
  unfold Host.gather
  refine congrArg tbl (funext fun a => Fin.ext ?_)
  match a with
  | ⟨0, _⟩ => exact (opIdx_0 idx b l d).trans h
  | ⟨1, _⟩ => exact opIdx_1 idx b l d

theorem tail_apply (tbl : FVec Ideal S100000x64 .f32) (inp : IVec S64x200 32)
    (hin : ∀ y, 0 ≤ (inp y).toInt ∧ (inp y).toInt < 100000) (b : Fin 64) (l : Fin 200) (d : Fin 64)
    (hlt : (inp (ix2 b l)).toNat < 100000) :
    tail tbl inp (ix3 b l d) = tbl (ix2 (⟨(inp (ix2 b l)).toNat, hlt⟩ : Fin 100000) d) := by
  unfold tail
  refine gather_row tbl _ b l d _ hlt ?_
  rw [startIdx_apply inp hin b l]
  have h0 := (hin (ix2 b l)).1
  rw [StableHlo.Predicate.toInt_eq_toNat_of_lt (by omega), Int.toNat_natCast]
  omega

/-- The scalar shape has one index. -/
instance subsingleton_scalar_idx : Subsingleton Cert.Pre_finite_inputs.S_.Idx := ⟨fun _ _ => funext fun d => d.elim0⟩

/-- The added precondition read: every entry of the index array is a row number of the table. -/
theorem range_of_pre (a0 : IVec Cert.Pre_finite_inputs.S64x200 32) (a1 : FVec Ideal Cert.Pre_finite_inputs.S100000x64 .f32)
    (a2 : FVec Ideal Cert.Pre_finite_inputs.S64x128 .f32) (a3 : FVec Ideal Cert.Pre_finite_inputs.S128 .f32)
    (a4 : FVec Ideal Cert.Pre_finite_inputs.S128x64 .f32) (a5 : FVec Ideal Cert.Pre_finite_inputs.S64 .f32)
    (a6 : IVec Cert.Pre_finite_inputs.S2x600000 32)
    (h : Cert.Pre_finite_inputs.fn (F := Ideal) a0 a1 a2 a3 a4 a5 a6 = fun _ => 1#1) :
    ∀ y, 0 ≤ (a0 y).toInt ∧ (a0 y).toInt < 100000 := by
  have e := congrFun h ValueIdx.ix0
  dsimp only [Cert.Pre_finite_inputs.fn, Cert.Pre_finite_inputs.fn_part1, Idealize.ShloMosaic.andi] at e
  -- the last two conjuncts: every entry is at least 0, and every entry is below 100000
  obtain ⟨e27, h30⟩ := IntOp.andi_eq_one.1 e
  obtain ⟨_, h26⟩ := IntOp.andi_eq_one.1 e27
  intro y
  have hge : IntOp.cmpi .sge (a0 y) 0#32 = 1#1 := Host.reduce_andi_all _ _ _ _ _ h26 y
  have hlt : IntOp.cmpi .slt (a0 y) 100000#32 = 1#1 := Host.reduce_andi_all _ _ _ _ _ h30 y
  unfold IntOp.cmpi at hge hlt
  rw [StableHlo.Predicate.ofBool_eq_one_iff] at hge hlt
  simp only [BitVec.slt, BitVec.sle, decide_eq_true_eq] at hge hlt
  have hz : (0#32 : BitVec 32).toInt = 0 := by decide
  have hc : (100000#32 : BitVec 32).toInt = 100000 := by decide
  rw [hz] at hge
  rw [hc] at hlt
  exact ⟨hge, hlt⟩

end Cert.ReferenceIdeal.Reads

end
-- ==== Proof.BridgeDots.lean ====
import proofs.«411832_j70755291234320_1_alg».proof.Proof.HostLayer1
import proofs.«411832_j70755291234320_1_alg».proof.Proof.MatmulRegions
import proofs.«411832_j70755291234320_1_alg».proof.Proof.RefReads
import proofs.«411832_j70755291234320_1_alg».proof.Proof.Gen.KernelIdeal.Frame

/-!
# The two layers, joined

The kernel program's buffer contents at its segment boundaries are a fold from the launch memory: a launch leaves its
arrays at what its write-backs leave, a host stretch applies its operations. The reference's contents are the fold of
its one line of operations. Starting from agreement on the argument arrays, each stretch of the kernel program's host
operations is matched with the reference's next operations; at the place where the reference computes a matrix product
on the host the kernel program has already computed it in a launch, and the two arrays are equal because both are the
same sums over the inner axis of equal factors. After two layers the two programs agree on the table the last step
looks rows up in, and on the arguments.
-/

set_option maxRecDepth 16384

noncomputable section

namespace Cert.Bridge

open Idealize.ShloMosaic Idealize.ShloMosaic.StableHlo Idealize.ShloMosaic.TcCoe

/-- An operation on the second side only, whose result is what a buffer of the first side already holds: the pair is
    added to the list. -/
theorem addPairR {τ : Topo} {sig₁ sig₂ : RefSig} {Val : EltTy → Type} {P : List (Ref sig₁ .tc × Ref sig₂ .tc)}
    {V₁ : Valuation τ sig₁ Val} {V₂ : Valuation τ sig₂ Val} (h : Agree P V₁ V₂) {op' : HloOp τ sig₂ Val}
    {y : Ref sig₁ .tc} {y' : Ref sig₂ .tc} (hw' : op'.writes = {Proc.devRef .tc y'}) (hy' : y' ∉ P.map Prod.snd)
    (hres : HEq (V₁ (Proc.devRef .tc y)) (op'.result V₂ (Proc.devRef .tc y'))) :
    Agree ((y, y') :: P) V₁ (op'.result V₂) := Agree.cons hres (h.writeR hw' hy')

/-- The same pairs, the first side's contents replaced by equal ones. -/
theorem agree_congrL {τ : Topo} {sig₁ sig₂ : RefSig} {Val : EltTy → Type} {P : List (Ref sig₁ .tc × Ref sig₂ .tc)}
    {V₁ V₁' : Valuation τ sig₁ Val} {V₂ : Valuation τ sig₂ Val} (h : Agree P V₁ V₂)
    (he : ∀ p ∈ P, V₁' (Proc.devRef .tc p.1) = V₁ (Proc.devRef .tc p.1)) : Agree P V₁' V₂ :=
  fun p hp => (he p hp) ▸ h p hp

section RefOps

open Cert.ReferenceIdeal Cert.ReferenceIdeal.Gen

variable {F : FTy → Type} [FloatOps F]

/-- The reference's first matrix product, on the host. -/
abbrev dot1op : HloOp Topo.v7x Cert.ReferenceIdeal.sig (Elt F) :=
  binary main_arg1 main_arg2 main_v31 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F))

/-- The reference's second matrix product. -/
abbrev dot2op : HloOp Topo.v7x Cert.ReferenceIdeal.sig (Elt F) :=
  binary main_v47 main_arg4 main_v79 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F))

theorem drop42 : List.drop 42 (refOps (F := F)) = dot1op :: List.drop 43 (refOps (F := F)) := rfl
theorem drop104 : List.drop 104 (refOps (F := F)) = dot2op :: List.drop 105 (refOps (F := F)) := rfl

end RefOps

/-- Where the reference multiplies on the host, the kernel program's buffer already holds the product. -/
theorem dot1_heq (V₁ : Valuation Topo.v7x Cert.KernelIdeal.sig (Elt Ideal)) (V₂ : Valuation Topo.v7x Cert.ReferenceIdeal.sig (Elt Ideal))
    (hv : V₁ (Proc.devRef .tc Cert.KernelIdeal.main_v0)
      = Cert.Spec.mm 100000 64 128 (V₁ (Proc.devRef .tc Cert.KernelIdeal.main_arg1)) (V₁ (Proc.devRef .tc Cert.KernelIdeal.main_arg2)))
    (h1 : HEq (V₁ (Proc.devRef .tc Cert.KernelIdeal.main_arg1)) (V₂ (Proc.devRef .tc Cert.ReferenceIdeal.main_arg1)))
    (h2 : HEq (V₁ (Proc.devRef .tc Cert.KernelIdeal.main_arg2)) (V₂ (Proc.devRef .tc Cert.ReferenceIdeal.main_arg2))) :
    HEq (V₁ (Proc.devRef .tc Cert.KernelIdeal.main_v0)) ((dot1op (F := Ideal)).result V₂ (Proc.devRef .tc Cert.ReferenceIdeal.main_v31)) := by
  have e : (dot1op (F := Ideal)).result V₂ (Proc.devRef .tc Cert.ReferenceIdeal.main_v31)
      = Cert.Spec.mm 100000 64 128 (V₂ (Proc.devRef .tc Cert.ReferenceIdeal.main_arg1)) (V₂ (Proc.devRef .tc Cert.ReferenceIdeal.main_arg2)) :=
    (binary_result _ _ _ _ _ _ _ V₂).trans (Cert.ReferenceIdeal.Reads.dot0 _ _)
  rw [hv, e, eq_of_heq h1, eq_of_heq h2]

theorem dot2_heq (V₁ : Valuation Topo.v7x Cert.KernelIdeal.sig (Elt Ideal)) (V₂ : Valuation Topo.v7x Cert.ReferenceIdeal.sig (Elt Ideal))
    (hv : V₁ (Proc.devRef .tc Cert.KernelIdeal.main_v48)
      = Cert.Spec.mm 100000 128 64 (V₁ (Proc.devRef .tc Cert.KernelIdeal.main_v47)) (V₁ (Proc.devRef .tc Cert.KernelIdeal.main_arg4)))
    (h1 : HEq (V₁ (Proc.devRef .tc Cert.KernelIdeal.main_v47)) (V₂ (Proc.devRef .tc Cert.ReferenceIdeal.main_v47)))
    (h2 : HEq (V₁ (Proc.devRef .tc Cert.KernelIdeal.main_arg4)) (V₂ (Proc.devRef .tc Cert.ReferenceIdeal.main_arg4))) :
    HEq (V₁ (Proc.devRef .tc Cert.KernelIdeal.main_v48)) ((dot2op (F := Ideal)).result V₂ (Proc.devRef .tc Cert.ReferenceIdeal.main_v79)) := by
  have e : (dot2op (F := Ideal)).result V₂ (Proc.devRef .tc Cert.ReferenceIdeal.main_v79)
      = Cert.Spec.mm 100000 128 64 (V₂ (Proc.devRef .tc Cert.ReferenceIdeal.main_v47)) (V₂ (Proc.devRef .tc Cert.ReferenceIdeal.main_arg4)) :=
    (binary_result _ _ _ _ _ _ _ V₂).trans (Cert.ReferenceIdeal.Reads.dot1 _ _)
  rw [hv, e, eq_of_heq h1, eq_of_heq h2]

end Cert.Bridge

end
-- ==== Proof.HostLayer2.lean ====
import proofs.«411832_j70755291234320_1_alg».proof.Proof.HostLayer1

/-!
# The second layer's host operations, side by side

The same edge mixing once more, on the second matrix product; the kernel program then flattens the index array to a
column for its last launch, an operation the reference does not have.
-/

set_option maxRecDepth 16384

noncomputable section

namespace Cert.Bridge

open Idealize.ShloMosaic Idealize.ShloMosaic.StableHlo

variable {F : FTy → Type} [FloatOps F]

/-- After the edge lists, the degrees, their mask and their power; the first layer's result is still to be multiplied. -/
abbrev pairs2a : List (Ref Cert.KernelIdeal.sig .tc × Ref Cert.ReferenceIdeal.sig .tc) :=
  (Cert.KernelIdeal.main_v54, Cert.ReferenceIdeal.main_v53) :: (Cert.KernelIdeal.main_v55, Cert.ReferenceIdeal.main_v54) ::
  (Cert.KernelIdeal.main_v61, Cert.ReferenceIdeal.main_v60) :: (Cert.KernelIdeal.main_v63, Cert.ReferenceIdeal.main_v62) ::
  (Cert.KernelIdeal.main_cst_14, Cert.ReferenceIdeal.main_cst_14) :: (Cert.KernelIdeal.main_v47, Cert.ReferenceIdeal.main_v47) :: args

/-- After the masked power. -/
abbrev pairs2b : List (Ref Cert.KernelIdeal.sig .tc × Ref Cert.ReferenceIdeal.sig .tc) :=
  (Cert.KernelIdeal.main_v54, Cert.ReferenceIdeal.main_v53) :: (Cert.KernelIdeal.main_v55, Cert.ReferenceIdeal.main_v54) ::
  (Cert.KernelIdeal.main_v64, Cert.ReferenceIdeal.main_v63) :: (Cert.KernelIdeal.main_v47, Cert.ReferenceIdeal.main_v47) :: args

/-- After the per-edge factor. -/
abbrev pairs2c : List (Ref Cert.KernelIdeal.sig .tc × Ref Cert.ReferenceIdeal.sig .tc) :=
  (Cert.KernelIdeal.main_v54, Cert.ReferenceIdeal.main_v53) :: (Cert.KernelIdeal.main_v55, Cert.ReferenceIdeal.main_v54) ::
  (Cert.KernelIdeal.main_v79, Cert.ReferenceIdeal.main_v78) :: (Cert.KernelIdeal.main_v47, Cert.ReferenceIdeal.main_v47) :: args

/-- After the second layer: the table the last step looks rows up in. -/
abbrev pairs2d : List (Ref Cert.KernelIdeal.sig .tc × Ref Cert.ReferenceIdeal.sig .tc) :=
  (Cert.KernelIdeal.main_v95, Cert.ReferenceIdeal.main_v95) :: args

set_option maxHeartbeats 1000000 in
theorem layer2a : SimPre (τ := Topo.v7x) pairs1d (Cert.KernelIdeal.Gen.hostOps2 (F := F)) (List.drop 62 (refOps (F := F))) pairs2a (List.drop 82 (refOps (F := F))) := by
  repeat host_step
  host_done

set_option maxHeartbeats 1000000 in
theorem layer2b : SimPre (τ := Topo.v7x) pairs2a (Cert.KernelIdeal.Gen.hostOps2_1 (F := F)) (List.drop 82 (refOps (F := F))) pairs2b (List.drop 85 (refOps (F := F))) := by
  repeat host_step
  host_done

set_option maxHeartbeats 1000000 in
theorem layer2c : SimPre (τ := Topo.v7x) pairs2b (List.take 19 (Cert.KernelIdeal.Gen.hostOps2_2 (F := F))) (List.drop 85 (refOps (F := F))) pairs2c (List.drop 104 (refOps (F := F))) := by
  repeat host_step
  host_done

set_option maxHeartbeats 1000000 in
theorem layer2d : SimPre (τ := Topo.v7x) ((Cert.KernelIdeal.main_v48, Cert.ReferenceIdeal.main_v79) :: pairs2c)
    (List.drop 19 (Cert.KernelIdeal.Gen.hostOps2_2 (F := F))) (List.drop 105 (refOps (F := F))) pairs2d (List.drop 124 (refOps (F := F))) := by
  repeat host_step
  host_skipL
  host_done

/-- The second product's result and its two factors are written by none of these operations. -/
abbrev kept2 : List (Ref Cert.KernelIdeal.sig .tc) := [Cert.KernelIdeal.main_v48, Cert.KernelIdeal.main_v47, Cert.KernelIdeal.main_arg4]

theorem keeps2a : Keeps (τ := Topo.v7x) kept2 (Cert.KernelIdeal.Gen.hostOps2 (F := F)) := by
  repeat keeps_step
  exact Keeps.nil
theorem keeps2b : Keeps (τ := Topo.v7x) kept2 (Cert.KernelIdeal.Gen.hostOps2_1 (F := F)) := by
  repeat keeps_step
  exact Keeps.nil
theorem keeps2c : Keeps (τ := Topo.v7x) kept2 (List.take 19 (Cert.KernelIdeal.Gen.hostOps2_2 (F := F))) := by
  repeat keeps_step
  exact Keeps.nil

/-- The index array and the table are written by none of the second layer's last operations but the flattening. -/
theorem keeps2e : Keeps (τ := Topo.v7x) [Cert.KernelIdeal.main_arg0] (List.take 38 (Cert.KernelIdeal.Gen.hostOps2_2 (F := F))) := by
  repeat keeps_step
  exact Keeps.nil

end Cert.Bridge

end
-- ==== Proof.BridgeLayers.lean ====
import proofs.«411832_j70755291234320_1_alg».proof.Proof.BridgeDots
import proofs.«411832_j70755291234320_1_alg».proof.Proof.HostLayer2

/-!
# From the launch to the table

The kernel program's boundary contents against the reference's line, layer by layer. A launch's input arrays hold at
its exit what they held at its entry, and its output array holds the matrix product of the two; the host operations
between the launches write none of these three buffers before the reference's own product, which is therefore the same
array. What is left of the reference's line after two layers is its lookup.
-/

set_option maxRecDepth 16384

noncomputable section

namespace Cert.Bridge

open Idealize.ShloMosaic Idealize.ShloMosaic.StableHlo Idealize.ShloMosaic.TcCoe
open Cert.KernelIdeal.Gen (W0 W1 W2 W3 W4 W5 W6 W7 W8 V0 V4 dat0 dat1)

variable (m : (ℓ : Loc Cert.KernelIdeal.nD Cert.KernelIdeal.τ Cert.KernelIdeal.sig) → Buf (Elt Ideal) ℓ) (ρ : Dev Cert.KernelIdeal.nD → PrngReg)

/-! ## The first launch -/

theorem W1_arg1 (c : Dev Cert.KernelIdeal.nD) : W1 m ρ c (Proc.devRef .tc Cert.KernelIdeal.main_arg1) = W0 m ρ c (Proc.devRef .tc Cert.KernelIdeal.main_arg1) :=
  (Cert.KernelIdeal.Gen.W1_arr m ρ c 0).trans (((dat0 (V0 m ρ) c).arrAt_in 0 rfl _).trans (Cert.KernelIdeal.Gen.A_eq0 (V0 m ρ) c 0))

theorem W1_arg2 (c : Dev Cert.KernelIdeal.nD) : W1 m ρ c (Proc.devRef .tc Cert.KernelIdeal.main_arg2) = W0 m ρ c (Proc.devRef .tc Cert.KernelIdeal.main_arg2) :=
  (Cert.KernelIdeal.Gen.W1_arr m ρ c 1).trans (((dat0 (V0 m ρ) c).arrAt_in 1 rfl _).trans (Cert.KernelIdeal.Gen.A_eq0 (V0 m ρ) c 1))

/-- At the first launch's exit its output array is the product of its two input arrays. -/
theorem region0_value (c : Dev Cert.KernelIdeal.nD) :
    W1 m ρ c (Proc.devRef .tc Cert.KernelIdeal.main_v0) = Cert.Spec.mm 100000 64 128 (W1 m ρ c (Proc.devRef .tc Cert.KernelIdeal.main_arg1)) (W1 m ρ c (Proc.devRef .tc Cert.KernelIdeal.main_arg2)) := by
  rw [W1_arg1, W1_arg2]
  exact (Cert.KernelIdeal.Gen.W1_arr m ρ c 2).trans (Cert.KernelIdeal.Regions.arr0 (V0 m ρ) c)

/-- The three buffers of the first product, after the host operations that precede the reference's product. -/
theorem mid1_eq (c : Dev Cert.KernelIdeal.nD) {r : Ref Cert.KernelIdeal.sig .tc} (hr : r ∈ kept1) :
    after (List.take 19 (Cert.KernelIdeal.Gen.hostOps1_2 (F := Ideal))) (W3 m ρ c) (Proc.devRef .tc r) = W1 m ρ c (Proc.devRef .tc r) :=
  (keeps1c.after_eq hr _).trans ((keeps1b.after_eq hr _).trans (keeps1a.after_eq hr _))

/-- The first layer: from agreement on the arguments at the first launch's exit to agreement on the layer's result
    at the second launch's entry, the reference having run its first sixty-two operations. -/
theorem after_layer1 (c : Dev Cert.KernelIdeal.nD) (M : Valuation Topo.v7x Cert.ReferenceIdeal.sig (Elt Ideal)) (h0 : Agree args (W1 m ρ c) M) :
    ∃ M' : Valuation Topo.v7x Cert.ReferenceIdeal.sig (Elt Ideal), Agree pairs1d (W4 m ρ c) M'
      ∧ after (refOps (F := Ideal)) M = after (List.drop 62 (refOps (F := Ideal))) M' := by
  obtain ⟨Ma, hA, ea⟩ := layer1a (F := Ideal) _ _ h0
  obtain ⟨Mb, hB, eb⟩ := layer1b (F := Ideal) _ _ hA
  obtain ⟨Mc, hC, ec⟩ := layer1c (F := Ideal) _ _ hB
  have hv : after (List.take 19 (Cert.KernelIdeal.Gen.hostOps1_2 (F := Ideal))) (W3 m ρ c) (Proc.devRef .tc Cert.KernelIdeal.main_v0)
      = Cert.Spec.mm 100000 64 128 (after (List.take 19 (Cert.KernelIdeal.Gen.hostOps1_2 (F := Ideal))) (W3 m ρ c) (Proc.devRef .tc Cert.KernelIdeal.main_arg1))
          (after (List.take 19 (Cert.KernelIdeal.Gen.hostOps1_2 (F := Ideal))) (W3 m ρ c) (Proc.devRef .tc Cert.KernelIdeal.main_arg2)) := by
    rw [mid1_eq m ρ c (r := Cert.KernelIdeal.main_v0) (by decide), mid1_eq m ρ c (r := Cert.KernelIdeal.main_arg1) (by decide),
      mid1_eq m ρ c (r := Cert.KernelIdeal.main_arg2) (by decide)]
    exact region0_value m ρ c
  have hmid := addPairR hC (op' := dot1op (F := Ideal)) (y := Cert.KernelIdeal.main_v0) (y' := Cert.ReferenceIdeal.main_v31) rfl (by decide)
    (dot1_heq _ _ hv (hC.get (by decide)) (hC.get (by decide)))
  obtain ⟨Md, hD, ed⟩ := layer1d (F := Ideal) _ _ hmid
  refine ⟨Md, ?_, ?_⟩
  · have e : W4 m ρ c = after (List.drop 19 (Cert.KernelIdeal.Gen.hostOps1_2 (F := Ideal))) (after (List.take 19 (Cert.KernelIdeal.Gen.hostOps1_2 (F := Ideal))) (W3 m ρ c)) := by
      exact (congrArg (fun l => after l (W3 m ρ c)) (List.take_append_drop 19 (Cert.KernelIdeal.Gen.hostOps1_2 (F := Ideal))).symm).trans (after_append _ _ _)
    rw [e]; exact hD
  · rw [ea, eb, ec, drop42]; exact ed

/-! ## The second launch -/

theorem W5_v47 (c : Dev Cert.KernelIdeal.nD) : W5 m ρ c (Proc.devRef .tc Cert.KernelIdeal.main_v47) = W4 m ρ c (Proc.devRef .tc Cert.KernelIdeal.main_v47) :=
  (Cert.KernelIdeal.Gen.W5_arr m ρ c 0).trans (((dat1 (V4 m ρ) c).arrAt_in 0 rfl _).trans (Cert.KernelIdeal.Gen.A_eq1 (V4 m ρ) c 0))

theorem W5_arg4 (c : Dev Cert.KernelIdeal.nD) : W5 m ρ c (Proc.devRef .tc Cert.KernelIdeal.main_arg4) = W4 m ρ c (Proc.devRef .tc Cert.KernelIdeal.main_arg4) :=
  (Cert.KernelIdeal.Gen.W5_arr m ρ c 1).trans (((dat1 (V4 m ρ) c).arrAt_in 1 rfl _).trans (Cert.KernelIdeal.Gen.A_eq1 (V4 m ρ) c 1))

/-- At the second launch's exit its output array is the product of its two input arrays. -/
theorem region1_value (c : Dev Cert.KernelIdeal.nD) :
    W5 m ρ c (Proc.devRef .tc Cert.KernelIdeal.main_v48) = Cert.Spec.mm 100000 128 64 (W5 m ρ c (Proc.devRef .tc Cert.KernelIdeal.main_v47)) (W5 m ρ c (Proc.devRef .tc Cert.KernelIdeal.main_arg4)) := by
  rw [W5_v47, W5_arg4]
  exact (Cert.KernelIdeal.Gen.W5_arr m ρ c 2).trans (Cert.KernelIdeal.Regions.arr1 (V4 m ρ) c)

theorem mid2_eq (c : Dev Cert.KernelIdeal.nD) {r : Ref Cert.KernelIdeal.sig .tc} (hr : r ∈ kept2) :
    after (List.take 19 (Cert.KernelIdeal.Gen.hostOps2_2 (F := Ideal))) (W7 m ρ c) (Proc.devRef .tc r) = W5 m ρ c (Proc.devRef .tc r) :=
  (keeps2c.after_eq hr _).trans ((keeps2b.after_eq hr _).trans (keeps2a.after_eq hr _))

/-- The second launch leaves the first layer's result and every argument as it found them. -/
theorem agree_W5 (c : Dev Cert.KernelIdeal.nD) (M : Valuation Topo.v7x Cert.ReferenceIdeal.sig (Elt Ideal)) (h : Agree pairs1d (W4 m ρ c) M) :
    Agree pairs1d (W5 m ρ c) M := by
  refine agree_congrL h fun p hp => ?_
  simp only [pairs1d, args, List.mem_cons, List.mem_nil_iff, or_false] at hp
  rcases hp with rfl | rfl | rfl | rfl | rfl | rfl | rfl | rfl
  · exact W5_v47 m ρ c
  · exact Cert.KernelIdeal.Gen.W5_of_ne m ρ c _ (by decide)
  · exact Cert.KernelIdeal.Gen.W5_of_ne m ρ c _ (by decide)
  · exact Cert.KernelIdeal.Gen.W5_of_ne m ρ c _ (by decide)
  · exact Cert.KernelIdeal.Gen.W5_of_ne m ρ c _ (by decide)
  · exact W5_arg4 m ρ c
  · exact Cert.KernelIdeal.Gen.W5_of_ne m ρ c _ (by decide)
  · exact Cert.KernelIdeal.Gen.W5_of_ne m ρ c _ (by decide)

/-- The second layer: to agreement on the table at the third launch's entry, the reference's lookup left to run. -/
theorem after_layer2 (c : Dev Cert.KernelIdeal.nD) (M : Valuation Topo.v7x Cert.ReferenceIdeal.sig (Elt Ideal)) (h0 : Agree pairs1d (W5 m ρ c) M) :
    ∃ M' : Valuation Topo.v7x Cert.ReferenceIdeal.sig (Elt Ideal), Agree pairs2d (W8 m ρ c) M'
      ∧ after (List.drop 62 (refOps (F := Ideal))) M = after (List.drop 124 (refOps (F := Ideal))) M' := by
  obtain ⟨Ma, hA, ea⟩ := layer2a (F := Ideal) _ _ h0
  obtain ⟨Mb, hB, eb⟩ := layer2b (F := Ideal) _ _ hA
  obtain ⟨Mc, hC, ec⟩ := layer2c (F := Ideal) _ _ hB
  have hv : after (List.take 19 (Cert.KernelIdeal.Gen.hostOps2_2 (F := Ideal))) (W7 m ρ c) (Proc.devRef .tc Cert.KernelIdeal.main_v48)
      = Cert.Spec.mm 100000 128 64 (after (List.take 19 (Cert.KernelIdeal.Gen.hostOps2_2 (F := Ideal))) (W7 m ρ c) (Proc.devRef .tc Cert.KernelIdeal.main_v47))
          (after (List.take 19 (Cert.KernelIdeal.Gen.hostOps2_2 (F := Ideal))) (W7 m ρ c) (Proc.devRef .tc Cert.KernelIdeal.main_arg4)) := by
    rw [mid2_eq m ρ c (r := Cert.KernelIdeal.main_v48) (by decide), mid2_eq m ρ c (r := Cert.KernelIdeal.main_v47) (by decide),
      mid2_eq m ρ c (r := Cert.KernelIdeal.main_arg4) (by decide)]
    exact region1_value m ρ c
  have hmid := addPairR hC (op' := dot2op (F := Ideal)) (y := Cert.KernelIdeal.main_v48) (y' := Cert.ReferenceIdeal.main_v79) rfl (by decide)
    (dot2_heq _ _ hv (hC.get (by decide)) (hC.get (by decide)))
  obtain ⟨Md, hD, ed⟩ := layer2d (F := Ideal) _ _ hmid
  refine ⟨Md, ?_, ?_⟩
  · have e : W8 m ρ c = after (List.drop 19 (Cert.KernelIdeal.Gen.hostOps2_2 (F := Ideal))) (after (List.take 19 (Cert.KernelIdeal.Gen.hostOps2_2 (F := Ideal))) (W7 m ρ c)) := by
      exact (congrArg (fun l => after l (W7 m ρ c)) (List.take_append_drop 19 (Cert.KernelIdeal.Gen.hostOps2_2 (F := Ideal))).symm).trans (after_append _ _ _)
    rw [e]; exact hD
  · rw [ea, eb, ec, drop104]; exact ed

end Cert.Bridge

end
-- ==== Proof.GatherRegionPieces.lean ====
import proofs.«411832_j70755291234320_1_alg».proof.Proof.Gen.KernelIdeal.Frame
import Idealize.ShloMosaic.Lib.Pipeline.Value
import Idealize.ShloMosaic.Lib.Tactic

/-!
# What one grid point of the lookup leaves in the carried output block

At a tile index zero the block is first cleared and then updated, so it ends at the update of the zero block;
at every other tile index it ends at the update of what the point before left.
-/

noncomputable section

namespace Cert.KernelIdeal.GatherRegion

open Idealize.ShloMosaic Idealize.ShloMosaic.TcCoe Cert.KernelIdeal Cert.KernelIdeal.Gen

variable {F : FTy → Type} [FloatOps F]

theorem hz : (![0, 0] : Fin 2 → Nat) = fun _ => 0 := funext fun a => by fin_cases a <;> rfl

/-- A tile index other than zero: the block holding `xo` ends at the update of `xo`. -/
theorem out_B (c : Dev nD) (i : grid2.Coords) (a2 : Memref sig .tc .vmem S3200x1 .i32) (h2 : a2.IsWhole)
    (a3 : Memref sig .tc .vmem S2000x64 .f32) (h3 : a3.IsWhole) (a4 : Memref sig .tc .vmem S3200x64 .f32) (h4 : a4.IsWhole)
    (hc : ¬cond2_0 i) (x0 : Vec F S3200x1 .i32) (x1 : Vec F S2000x64 .f32) (xo : Vec F S3200x64 .f32) :
    out2_B_2 c i a2 h2 a3 h3 a4 h4 hc x0 x1 xo = k2_pay2 i x0 x1 xo := by
  unfold out2_B_2
  rw [View.read_writes_eq_canon _ _ _ (cover2_B_2 c i a2 h2 a3 h3 a4 h4 hc x0 x1 xo)]
  unfold kernelRun2_B
  dsimp only
  sl_unfold_words
  rw [View.canon_unit_zero hz]
  simp only [View.readAt_eq_ld, h2.read_unread, h3.read_unread, h4.read_unread, View.ld_unit_zero (S := S3200x1) hz,
    View.ld_unit_zero (S := S2000x64) hz, View.ld_unit_zero (S := S3200x64) hz]

/-- Tile index zero: the block is cleared first, so it ends at the update of the zero block. -/
theorem out_A (c : Dev nD) (i : grid2.Coords) (a2 : Memref sig .tc .vmem S3200x1 .i32) (h2 : a2.IsWhole)
    (a3 : Memref sig .tc .vmem S2000x64 .f32) (h3 : a3.IsWhole) (a4 : Memref sig .tc .vmem S3200x64 .f32) (h4 : a4.IsWhole)
    (hc : cond2_0 i) (x0 : Vec F S3200x1 .i32) (x1 : Vec F S2000x64 .f32) :
    out2_A_2 c i a2 h2 a3 h3 a4 h4 hc x0 x1 = k2_pay2 i x0 x1 (k2_pay1 (F := F)) := by
  unfold out2_A_2
  rw [View.read_writes_eq_canon _ _ _ (cover2_A_2 c i a2 h2 a3 h3 a4 h4 hc x0 x1)]
  unfold kernelRun2_A
  dsimp only
  sl_unfold_words
  rw [View.canon_cons_unit_zero (S := S3200x64) hz, View.readCov_unit_zero (S := S3200x64) _ hz]
  simp only [View.readAt_eq_ld, h2.read_unread, h3.read_unread, View.ld_unit_zero (S := S3200x1) hz,
    View.ld_unit_zero (S := S2000x64) hz]

end Cert.KernelIdeal.GatherRegion

end
-- ==== Proof.GatherRegionPayload.lean ====
import proofs.«411832_j70755291234320_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

/-!
# The update of the carried block, read at one entry

The update adds to the carried block the product of an indicator matrix and the table tile: entry `(p, q)` gains the
sum over the tile's rows `j` of `[idx p = k * 2000 + j]` times the tile's entry `(j, q)`, the equality being one of
32-bit words.
-/

noncomputable section

namespace Cert.KernelIdeal.GatherRegion

open Idealize.ShloMosaic Idealize.ShloMosaic.ValueIdx Cert.KernelIdeal Cert.KernelIdeal.Gen

/-- A word comparison widened to a word and converted is one where the words agree and zero elsewhere. -/
theorem ind_val (a b : BitVec 32) :
    ((((IntOp.cmpi .eq a b).setWidth 32).toInt : ℝ) : EReal) = if a = b then 1 else 0 := by
  unfold IntOp.cmpi
  by_cases h : a = b
  · subst h; simp
  · have hb : (a == b) = false := by simpa using h
    simp [h, hb]

theorem lhs_axis0 (i : S3200x64.Idx) (q : dot_S3200x2000_S2000x64_S3200x64_1_0_0_1_n_n.contr.Idx) :
    (dot_S3200x2000_S2000x64_S3200x64_1_0_0_1_n_n.lhsIdx i q 0).val = (i 0).val := by
  unfold DotDims.lhsIdx
  rw [dif_neg (show ¬(0 : Fin S3200x2000.rank) ∈ dot_S3200x2000_S2000x64_S3200x64_1_0_0_1_n_n.lhsBatch by decide),
    dif_pos (show (0 : Fin S3200x2000.rank) ∈ dot_S3200x2000_S2000x64_S3200x64_1_0_0_1_n_n.lhsNonContracting by decide)]
  rfl
theorem lhs_axis1 (i : S3200x64.Idx) (q : dot_S3200x2000_S2000x64_S3200x64_1_0_0_1_n_n.contr.Idx) :
    (dot_S3200x2000_S2000x64_S3200x64_1_0_0_1_n_n.lhsIdx i q 1).val = (q ⟨0, by decide⟩).val :=
  dot_S3200x2000_S2000x64_S3200x64_1_0_0_1_n_n.lhsIdx_val_of_single rfl i q
theorem rhs_axis0 (i : S3200x64.Idx) (q : dot_S3200x2000_S2000x64_S3200x64_1_0_0_1_n_n.contr.Idx) :
    (dot_S3200x2000_S2000x64_S3200x64_1_0_0_1_n_n.rhsIdx i q 0).val = (q ⟨0, by decide⟩).val :=
  dot_S3200x2000_S2000x64_S3200x64_1_0_0_1_n_n.rhsIdx_val_of_single rfl i q
theorem rhs_axis1 (i : S3200x64.Idx) (q : dot_S3200x2000_S2000x64_S3200x64_1_0_0_1_n_n.contr.Idx) :
    (dot_S3200x2000_S2000x64_S3200x64_1_0_0_1_n_n.rhsIdx i q 1).val = (i 1).val := by
  unfold DotDims.rhsIdx
  rw [dif_neg (show ¬(1 : Fin S2000x64.rank) ∈ dot_S3200x2000_S2000x64_S3200x64_1_0_0_1_n_n.rhsBatch by decide),
    dif_pos (show (1 : Fin S2000x64.rank) ∈ dot_S3200x2000_S2000x64_S3200x64_1_0_0_1_n_n.rhsNonContracting by decide)]
  rfl

/-- The product into a zero block, at an entry: the sum over the inner axis. -/
theorem mm_apply (L : FVec Ideal S3200x2000 .bf16) (R : FVec Ideal S2000x64 .bf16) (p : Fin 3200) (q : Fin 64) :
    matmul (F := Ideal) dot_S3200x2000_S2000x64_S3200x64_1_0_0_1_n_n none L R (constant (F := Ideal) S3200x64 .f32 0x00000000#32) (ix2 p q)
      = ∑ k : Fin 2000, L (ix2 p k) * R (ix2 k q) := by
  simp only [matmul]
  rw [Ideal.matmul_constant_zero_apply,
    ← Equiv.sum_comp (contrEquiv1 dot_S3200x2000_S2000x64_S3200x64_1_0_0_1_n_n 2000 rfl rfl).symm]
  refine Finset.sum_congr rfl fun k _ => ?_
  have hk := contrEquiv1_symm_val dot_S3200x2000_S2000x64_S3200x64_1_0_0_1_n_n 2000 rfl rfl k
  have el : dot_S3200x2000_S2000x64_S3200x64_1_0_0_1_n_n.lhsIdx (ix2 p q)
      ((contrEquiv1 dot_S3200x2000_S2000x64_S3200x64_1_0_0_1_n_n 2000 rfl rfl).symm k) = ix2 p k := funext fun a => Fin.ext (by
    match a with
    | ⟨0, _⟩ => exact lhs_axis0 _ _
    | ⟨1, _⟩ => exact (lhs_axis1 _ _).trans hk)
  have er : dot_S3200x2000_S2000x64_S3200x64_1_0_0_1_n_n.rhsIdx (ix2 p q)
      ((contrEquiv1 dot_S3200x2000_S2000x64_S3200x64_1_0_0_1_n_n 2000 rfl rfl).symm k) = ix2 k q := funext fun a => Fin.ext (by
    match a with
    | ⟨0, _⟩ => exact (rhs_axis0 _ _).trans hk
    | ⟨1, _⟩ => exact rhs_axis1 _ _)
  rw [el, er]

/-- A column of words spread along the rows of a wider block reads its row's word. -/
theorem bcast_col (v : S3200x1.Idx → BitVec 32) (p : Fin 3200) (j : Fin 2000) :
    broadcastTo S3200x2000 v broadcasts_S3200x1_S3200x2000 (ix2 p j) = v (ix2 p (0 : Fin 1)) := by
  refine broadcastTo_apply v broadcasts_S3200x1_S3200x2000 (ix2 p j) (ix2 p (0 : Fin 1)) fun a => ?_
  match a with
  | ⟨0, _⟩ => rfl
  | ⟨1, _⟩ => rfl

/-- The indicator block at an entry. -/
theorem onehot_apply (i : grid2.Coords) (x0 : S3200x1.Idx → BitVec 32) (p : Fin 3200) (j : Fin 2000) :
    (truncf (F := Ideal) .bf16
        (sitofp (F := Ideal) .f32
          (extui 32
            (cmpi .eq
              (broadcastTo S3200x2000 (shapeCast S3200x1 x0 shapeCasts_S3200x1_S3200x1) broadcasts_S3200x1_S3200x2000)
              (addi (broadcast S3200x2000 (Scalar.muli (BitVec.ofNat 32 (i 1).val) 2000#32))
                (iota .tc S3200x2000 32 [1] iota_S3200x2000_d1_w32)))
            natLt_1_32))
        bitsLt_bf16_f32 : FVec Ideal S3200x2000 .bf16) (ix2 p j)
      = if x0 (ix2 p (0 : Fin 1)) = BitVec.ofNat 32 (i 1).val * 2000#32 + BitVec.ofNat 32 j.val then (1 : EReal) else 0 := by
  show ((((IntOp.cmpi .eq
      (broadcastTo S3200x2000 (shapeCast S3200x1 x0 shapeCasts_S3200x1_S3200x1) broadcasts_S3200x1_S3200x2000 (ix2 p j))
      (IntOp.addi (Scalar.muli (BitVec.ofNat 32 (i 1).val) 2000#32)
        (iota .tc S3200x2000 32 [1] iota_S3200x2000_d1_w32 (ix2 p j)))).setWidth 32).toInt : ℝ) : EReal) = _
  rw [ind_val, bcast_col, shapeCast_self, iota_single_apply]
  rfl

set_option maxHeartbeats 100000 in
theorem pay2_apply (i : grid2.Coords) (x0 : Vec Ideal S3200x1 .i32) (x1 : Vec Ideal S2000x64 .f32) (xo : Vec Ideal S3200x64 .f32)
    (p : Fin 3200) (q : Fin 64) :
    k2_pay2 (F := Ideal) i x0 x1 xo (ix2 p q)
      = (xo (ix2 p q) : EReal) + ∑ j : Fin 2000,
          (if x0 (ix2 p (0 : Fin 1)) = BitVec.ofNat 32 (i 1).val * 2000#32 + BitVec.ofNat 32 j.val then (1 : EReal) else 0)
            * (x1 (ix2 j q) : EReal) := by
  unfold k2_pay2
  dsimp only
  refine (addf_apply _ _ _).trans ?_
  refine congrArg₂ (· + ·) (congrFun (shapeCast_self xo shapeCasts_S3200x64_S3200x64) (ix2 p q)) ?_
  refine (mm_apply _ _ p q).trans ?_
  refine Finset.sum_congr rfl fun j _ => ?_
  refine congrArg₂ (· * ·) (onehot_apply i x0 p j) ?_
  exact congrFun (shapeCast_self x1 shapeCasts_S2000x64_S2000x64) (ix2 j q)

end Cert.KernelIdeal.GatherRegion

end
-- ==== Proof.OneHotSum.lean ====
import Idealize.ShloMosaic.PureOps.Ideal

noncomputable section

namespace Cert.Spec

/-- Fifty blocks of two thousand indicators, each times a term: at most one indicator is one. -/
theorem pick_sum (n : ℕ) (g : ℕ → EReal) :
    (∑ k ∈ Finset.range 50, ∑ j : Fin 2000, (if n = k * 2000 + j.val then (1 : EReal) else 0) * g (k * 2000 + j.val))
      = if n < 100000 then g n else 0 := by
  split_ifs with hn
  · -- the unique solution is k = n / 2000, j = n % 2000
    rw [Finset.sum_eq_single (n / 2000)]
    · rw [Finset.sum_eq_single (⟨n % 2000, Nat.mod_lt _ (by norm_num)⟩ : Fin 2000)]
      · have h : n = n / 2000 * 2000 + n % 2000 := by omega
        simp only [Fin.val_mk]
        rw [if_pos h, one_mul, ← h]
      · intro j _ hj
        have h : ¬ n = n / 2000 * 2000 + j.val := by
          intro h; apply hj; apply Fin.ext; simp only [Fin.val_mk]; omega
        rw [if_neg h, zero_mul]
      · intro h; exact absurd (Finset.mem_univ _) h
    · intro k _ hk
      apply Finset.sum_eq_zero
      intro j _
      have h : ¬ n = k * 2000 + j.val := by
        intro h; apply hk; have := j.isLt; omega
      rw [if_neg h, zero_mul]
    · intro h; exfalso; apply h; rw [Finset.mem_range]; omega
  · -- no block contains n
    apply Finset.sum_eq_zero
    intro k hk
    apply Finset.sum_eq_zero
    intro j _
    rw [Finset.mem_range] at hk
    have h : ¬ n = k * 2000 + j.val := by
      have := j.isLt; omega
    rw [if_neg h, zero_mul]

end Cert.Spec

end
-- ==== Proof.GatherRegionSum.lean ====
import proofs.«411832_j70755291234320_1_alg».proof.Proof.Spec
import proofs.«411832_j70755291234320_1_alg».proof.Proof.OneHotSum

/-!
# The row lookup as fifty blocks of two thousand indicators

The lookup's entry `(r, q)` is the sum, over the fifty tiles `k` and the two thousand rows `j` of a tile, of
`[idx r = k * 2000 + j]` times the table's entry `(k * 2000 + j, q)`; an index word is compared as a 32-bit word, which
for these row numbers is the comparison of its unsigned reading.
-/

noncomputable section

namespace Cert.KernelIdeal.GatherRegion

open Idealize.ShloMosaic Idealize.ShloMosaic.ValueIdx

/-- The table's entry `(n, q)`, zero when `n` names no row. -/
def rowAt (tbl : (⟨2, ![100000, 64]⟩ : Shape).Idx → EReal) (q : Fin 64) (n : ℕ) : EReal :=
  if h : n < 100000 then tbl (ix2 (⟨n, h⟩ : Fin 100000) q) else 0

/-- One indicator times one table entry. -/
def term (idx : (⟨2, ![12800, 1]⟩ : Shape).Idx → BitVec 32) (tbl : (⟨2, ![100000, 64]⟩ : Shape).Idx → EReal)
    (r : Fin 12800) (q : Fin 64) (k : ℕ) (j : Fin 2000) : EReal :=
  (if (idx (ix2 r (0 : Fin 1))).toNat = k * 2000 + j.val then (1 : EReal) else 0) * rowAt tbl q (k * 2000 + j.val)

/-- The lookup at `(r, q)` is the sum of all the terms. -/
theorem pick_at (idx : (⟨2, ![12800, 1]⟩ : Shape).Idx → BitVec 32) (tbl : (⟨2, ![100000, 64]⟩ : Shape).Idx → EReal)
    (i : (⟨2, ![12800, 64]⟩ : Shape).Idx) (r : Fin 12800) (q : Fin 64) (h0 : (i 0).val = r.val) (h1 : (i 1).val = q.val) :
    Cert.Spec.pick 12800 100000 64 idx tbl i = ∑ k ∈ Finset.range 50, ∑ j : Fin 2000, term idx tbl r q k j := by
  have hi : i = ix2 r q := by
    funext a
    match a with
    | ⟨0, _⟩ => exact Fin.ext h0
    | ⟨1, _⟩ => exact Fin.ext h1
  subst hi
  unfold term
  rw [Cert.Spec.pick_sum (idx (ix2 r (0 : Fin 1))).toNat (rowAt tbl q)]
  unfold Cert.Spec.pick rowAt
  show (if h : (idx (ix2 r (0 : Fin 1))).toNat < 100000 then tbl (ix2 ⟨_, h⟩ q) else 0) = _
  split_ifs <;> rfl

/-- For a tile below fifty and a row below two thousand, a word is `k * 2000 + j` computed in 32-bit words exactly when
    its unsigned reading is that number. -/
theorem word_eq_iff (w : BitVec 32) (k j : ℕ) (hk : k < 50) (hj : j < 2000) :
    w = BitVec.ofNat 32 k * 2000#32 + BitVec.ofNat 32 j ↔ w.toNat = k * 2000 + j := by
  have e : BitVec.ofNat 32 k * 2000#32 + BitVec.ofNat 32 j = BitVec.ofNat 32 (k * 2000 + j) := by
    apply BitVec.eq_of_toNat_eq
    simp only [BitVec.toNat_add, BitVec.toNat_mul, BitVec.toNat_ofNat, Nat.reducePow]
    omega
  rw [e]
  constructor
  · intro h
    rw [h, BitVec.toNat_ofNat]
    simp only [Nat.reducePow]
    omega
  · intro h
    apply BitVec.eq_of_toNat_eq
    rw [BitVec.toNat_ofNat, h]
    simp only [Nat.reducePow]
    omega

end Cert.KernelIdeal.GatherRegion

end
-- ==== Proof.GatherRegion.lean ====
import proofs.«411832_j70755291234320_1_alg».proof.Proof.Gen.KernelIdeal.Frame
import proofs.«411832_j70755291234320_1_alg».proof.Proof.Spec
import proofs.«411832_j70755291234320_1_alg».proof.Proof.GatherRegionPieces
import proofs.«411832_j70755291234320_1_alg».proof.Proof.GatherRegionPayload
import proofs.«411832_j70755291234320_1_alg».proof.Proof.GatherRegionSum
import Idealize.ShloMosaic.Lib.Pipeline.Value

/-!
# What the lookup region leaves in its output array

Grid point `n` works on index block `n / 50` and table tile `n % 50`. The carried output block after point `n` holds,
at `(p, q)`, the sum over the tiles `0 … n % 50` and their rows of the indicator of "index word `3200 (n / 50) + p`
names this row" times the row's entry `q`. After the last tile of a block this is the whole lookup, and the blocks
written back then tile the array.
-/

noncomputable section

namespace Cert.KernelIdeal.GatherRegion

open Idealize.ShloMosaic Idealize.ShloMosaic.TcCoe Cert.KernelIdeal Cert.KernelIdeal.Gen
open Idealize.ShloMosaic.ValueIdx
open Idealize.ShloMosaic.Pipeline (Dat)

variable (V : (c : Dev nD) → (b : Ref sig .tc) → Buf (Elt Ideal) ((c : Thread nD τ).loc b))

/-- The index words and the table as the region finds them. -/
abbrev idxArr (c : Dev nD) : S12800x1.Idx → BitVec 32 := V c main_v96
abbrev tblArr (c : Dev nD) : S100000x64.Idx → EReal := V c main_v95
/-- The two input blocks at a point, and the carried block after it. -/
abbrev idxBlk (c : Dev nD) (t : Fin cfg2.N) : S3200x1.Idx → BitVec 32 := iblk2 V c 0 t
abbrev tblBlk (c : Dev nD) (t : Fin cfg2.N) : S2000x64.Idx → EReal := iblk2 V c 1 t
abbrev accAt (c : Dev nD) (n : ℕ) (hn : n < cfg2.N) : S3200x64.Idx → EReal := outsAt2 V c n hn

/-- Point `t` is index block `t / 50` and tile `t % 50`: the printed index maps and the tile coordinate, over the grid. -/
theorem idx_facts : ∀ t : Fin cfg2.N,
    win2_0.index t (0 : Fin 2) = t.val / 50 ∧ win2_0.index t (1 : Fin 2) = 0
    ∧ win2_1.index t (0 : Fin 2) = t.val % 50 ∧ win2_1.index t (1 : Fin 2) = 0
    ∧ win2_2.index t (0 : Fin 2) = t.val / 50 ∧ win2_2.index t (1 : Fin 2) = 0
    ∧ ((grid2.coords t) 1).val = t.val % 50 :=
  (by decide +kernel : ∀ t : Fin grid2.N, _)

/-- The index block at a point reads the index words from `3200 (t / 50)` on. -/
theorem idxBlk_apply (c : Dev nD) (t : Fin cfg2.N) (p : Fin 3200) (r : Fin 12800) (hr : r.val = 3200 * (t.val / 50) + p.val) :
    idxBlk V c t (ix2 p (0 : Fin 1)) = idxArr V c (ix2 r (0 : Fin 1)) := by
  obtain ⟨e0, e1, -, -, -, -, -⟩ := idx_facts t
  unfold idxBlk iblk2
  rw [View.read_apply]
  show V c main_v96 _ = V c main_v96 _
  refine congrArg (V c main_v96) (funext fun a => Fin.ext ?_)
  match a with
  | ⟨0, _⟩ => show win2_0.index t (0 : Fin 2) * 3200 + 1 * p.val = r.val; omega
  | ⟨1, _⟩ => show win2_0.index t (1 : Fin 2) * 1 + 1 * 0 = 0; omega

/-- The table tile at a point reads the table's rows from `2000 (t % 50)` on. -/
theorem tblBlk_apply (c : Dev nD) (t : Fin cfg2.N) (j : Fin 2000) (q : Fin 64) (n : Fin 100000) (hn : n.val = t.val % 50 * 2000 + j.val) :
    tblBlk V c t (ix2 j q) = tblArr V c (ix2 n q) := by
  obtain ⟨-, -, e2, e3, -, -, -⟩ := idx_facts t
  unfold tblBlk iblk2
  rw [View.read_apply]
  show V c main_v95 _ = V c main_v95 _
  refine congrArg (V c main_v95) (funext fun a => Fin.ext ?_)
  match a with
  | ⟨0, _⟩ => show win2_1.index t (0 : Fin 2) * 2000 + 1 * j.val = n.val; omega
  | ⟨1, _⟩ => show win2_1.index t (1 : Fin 2) * 64 + 1 * q.val = q.val; omega

/-- One term of the update at a point of tile `k`, over the arrays: the 32-bit comparison is the comparison of the
    unsigned readings, and the tile's row `j` is the table's row `k * 2000 + j`. -/
theorem step_term (c : Dev nD) (n : ℕ) (hn : n < cfg2.N) (k : ℕ) (hk : n % 50 = k) (p : Fin 3200) (q : Fin 64) (r : Fin 12800)
    (hr : r.val = 3200 * (n / 50) + p.val) (j : Fin 2000) :
    (if idxBlk V c ⟨n, hn⟩ (ix2 p (0 : Fin 1)) = BitVec.ofNat 32 ((grid2.coords ⟨n, hn⟩) 1).val * 2000#32 + BitVec.ofNat 32 j.val
        then (1 : EReal) else 0) * tblBlk V c ⟨n, hn⟩ (ix2 j q)
      = term (idxArr V c) (tblArr V c) r q k j := by
  obtain ⟨-, -, -, -, -, -, ek⟩ := idx_facts ⟨n, hn⟩
  have hN : n < 200 := lt_of_lt_of_eq hn (show cfg2.N = 200 from N_2)
  have hj : j.val < 2000 := j.isLt
  have ek' : ((grid2.coords ⟨n, hn⟩) 1).val = k := ek.trans hk
  have hlt : k * 2000 + j.val < 100000 := by omega
  unfold term rowAt
  rw [dif_pos hlt, idxBlk_apply V c ⟨n, hn⟩ p r hr, tblBlk_apply V c ⟨n, hn⟩ j q ⟨_, hlt⟩ (by show k * 2000 + j.val = n % 50 * 2000 + j.val; rw [hk]), ek']
  exact congrArg (· * _) (if_congr (word_eq_iff _ k j.val (by omega) hj) rfl rfl)

/-- The zero block the first tile's point clears the carried block to. -/
theorem zero_apply (y : S3200x64.Idx) : (k2_pay1 (F := Ideal) y : EReal) = 0 := Ideal.ofBits_zero_f32

/-- After a point of tile zero the carried block holds that tile's terms. -/
theorem acc_A (c : Dev nD) (n : ℕ) (hn : n < cfg2.N) (h0 : n % 50 = 0) (p : Fin 3200) (q : Fin 64) (r : Fin 12800)
    (hr : r.val = 3200 * (n / 50) + p.val) :
    accAt V c n hn (ix2 p q) = ∑ j : Fin 2000, term (idxArr V c) (tblArr V c) r q 0 j := by
  show outsAt2 V c n hn (ix2 p q) = _
  rw [outsAt2_A V c ⟨n, hn⟩ h0]
  refine (congrFun (out_A (F := Ideal) c (grid2.coords ⟨n, hn⟩) (ms2_0 ⟨n, hn⟩) (hs2_0 ⟨n, hn⟩) (ms2_1 ⟨n, hn⟩) (hs2_1 ⟨n, hn⟩)
    (ms2_2 ⟨n, hn⟩) (hs2_2 ⟨n, hn⟩) ((hcond2_0 ⟨n, hn⟩).mpr h0) (iblk2 V c 0 ⟨n, hn⟩) (iblk2 V c 1 ⟨n, hn⟩)) (ix2 p q)).trans ?_
  refine (pay2_apply (grid2.coords ⟨n, hn⟩) (idxBlk V c ⟨n, hn⟩) (tblBlk V c ⟨n, hn⟩) (k2_pay1 (F := Ideal)) p q).trans ?_
  rw [zero_apply, zero_add]
  exact Finset.sum_congr rfl fun j _ => step_term V c n hn 0 h0 p q r hr j

/-- After a point of another tile it holds what the point before left plus that tile's terms. -/
theorem acc_B (c : Dev nD) (n : ℕ) (hn : n + 1 < cfg2.N) (h0 : ¬(n + 1) % 50 = 0) (k : ℕ) (hk : (n + 1) % 50 = k) (p : Fin 3200) (q : Fin 64)
    (r : Fin 12800) (hr : r.val = 3200 * ((n + 1) / 50) + p.val) :
    accAt V c (n + 1) hn (ix2 p q)
      = accAt V c n (Nat.lt_of_succ_lt hn) (ix2 p q) + ∑ j : Fin 2000, term (idxArr V c) (tblArr V c) r q k j := by
  show outsAt2 V c (n + 1) hn (ix2 p q) = _
  rw [outsAt2_B V c ⟨n + 1, hn⟩ h0]
  refine (congrFun (out_B (F := Ideal) c (grid2.coords ⟨n + 1, hn⟩) (ms2_0 ⟨n + 1, hn⟩) (hs2_0 ⟨n + 1, hn⟩) (ms2_1 ⟨n + 1, hn⟩) (hs2_1 ⟨n + 1, hn⟩)
    (ms2_2 ⟨n + 1, hn⟩) (hs2_2 ⟨n + 1, hn⟩) (fun h => h0 ((hcond2_0 ⟨n + 1, hn⟩).mp h)) (iblk2 V c 0 ⟨n + 1, hn⟩) (iblk2 V c 1 ⟨n + 1, hn⟩)
    (outsAt2 V c n (Nat.lt_of_succ_lt hn))) (ix2 p q)).trans ?_
  refine (pay2_apply (grid2.coords ⟨n + 1, hn⟩) (idxBlk V c ⟨n + 1, hn⟩) (tblBlk V c ⟨n + 1, hn⟩) (accAt V c n (Nat.lt_of_succ_lt hn)) p q).trans ?_
  exact congrArg (accAt V c n (Nat.lt_of_succ_lt hn) (ix2 p q) + ·)
    (Finset.sum_congr rfl fun j _ => step_term V c (n + 1) hn k hk p q r hr j)

/-- The carried block after point `n`: the terms of the tiles `0 … n % 50`, for the index words of block `n / 50`. -/
theorem acc_eq (c : Dev nD) : ∀ (n : ℕ) (hn : n < cfg2.N) (p : Fin 3200) (q : Fin 64) (r : Fin 12800),
    r.val = 3200 * (n / 50) + p.val →
    accAt V c n hn (ix2 p q) = ∑ k ∈ Finset.range (n % 50 + 1), ∑ j : Fin 2000, term (idxArr V c) (tblArr V c) r q k j
  | 0, hn, p, q, r, hr => by
    rw [show 0 % 50 + 1 = 1 from rfl, Finset.sum_range_one]
    exact acc_A V c 0 hn rfl p q r hr
  | n + 1, hn, p, q, r, hr => by
    have hN : n + 1 < 200 := lt_of_lt_of_eq hn (show cfg2.N = 200 from N_2)
    by_cases h0 : (n + 1) % 50 = 0
    · rw [h0, show 0 + 1 = 1 from rfl, Finset.sum_range_one]
      exact acc_A V c (n + 1) hn h0 p q r hr
    · have e : (n + 1) % 50 = n % 50 + 1 := by omega
      rw [e, Finset.sum_range_succ, ← acc_eq c n (Nat.lt_of_succ_lt hn) p q r (by omega)]
      exact acc_B V c n hn h0 (n % 50 + 1) e p q r hr

/-- What a point that writes back writes is its block of the lookup. -/
theorem flushed_eq (c : Dev nD) (t : Fin cfg2.N) (hf : (cfg2.win 2).flush t = true) :
    (dat2 (F := Ideal) V c).flushed 2 t
      = ((cfg2.win 2).blk t).view.read (Elt Ideal) (Cert.Spec.pick 12800 100000 64 (V c main_v96) (V c main_v95)) := by
  have h49 : t.val % 50 = 49 := (flush2_2 t).mp hf
  have hN : t.val < 200 := lt_of_lt_of_eq t.isLt (show cfg2.N = 200 from N_2)
  obtain ⟨-, -, -, -, e4, e5, -⟩ := idx_facts t
  show (cfg2.win 2).cut (grid2.coords t) ((dat2 (F := Ideal) V c).after 2 t) = _
  rw [after2_2]
  refine funext fun (y : S3200x64.Idx) => ?_
  obtain ⟨p, q, rfl⟩ : ∃ (p : Fin 3200) (q : Fin 64), y = ix2 p q := ⟨y 0, y 1, eq_ix2 y⟩
  rw [View.read_apply]
  have hp : p.val < 3200 := p.isLt
  have hr : 3200 * (t.val / 50) + p.val < 12800 := by omega
  show accAt V c t.val t.isLt (ix2 p q) = _
  rw [acc_eq V c t.val t.isLt p q ⟨_, hr⟩ rfl, h49]
  refine (pick_at (idxArr V c) (tblArr V c) _ ⟨_, hr⟩ q ?_ ?_).symm
  · show win2_2.index t (0 : Fin 2) * 3200 + 1 * p.val = 3200 * (t.val / 50) + p.val; omega
  · show win2_2.index t (1 : Fin 2) * 64 + 1 * q.val = q.val; omega

/-- Every entry of the array is in the block some writing point writes: row `r` in that of point `50 (r / 3200) + 49`. -/
theorem cover (i : S12800x64.Idx) : ∃ t : Fin cfg2.N, (cfg2.win 2).flush t = true ∧ i ∈ ((cfg2.win 2).blk t).view.set := by
  have h0 : (i 0 : Nat) < 12800 := (i 0).isLt
  have h1 : (i 1 : Nat) < 64 := (i 1).isLt
  have hN : cfg2.N = 200 := N_2
  have hlt : 50 * ((i 0).val / 3200) + 49 < cfg2.N := by rw [hN]; omega
  obtain ⟨-, -, -, -, e4, e5, -⟩ := idx_facts ⟨50 * ((i 0).val / 3200) + 49, hlt⟩
  refine ⟨⟨50 * ((i 0).val / 3200) + 49, hlt⟩, (flush2_2 _).mpr (by show (50 * ((i 0).val / 3200) + 49) % 50 = 49; omega), ?_⟩
  show i ∈ ((View.whole main_v97).slice (win2_2.rect ⟨50 * ((i 0).val / 3200) + 49, hlt⟩)).set
  rw [View.set_slice_whole, Rect.mem_set_unit]
  intro a
  match a with
  | ⟨0, _⟩ =>
    show win2_2.index ⟨50 * ((i 0).val / 3200) + 49, hlt⟩ (0 : Fin 2) * 3200 ≤ (i 0 : Nat)
      ∧ (i 0 : Nat) < win2_2.index ⟨50 * ((i 0).val / 3200) + 49, hlt⟩ (0 : Fin 2) * 3200 + 3200
    rw [e4]
    show (50 * ((i 0).val / 3200) + 49) / 50 * 3200 ≤ (i 0 : Nat) ∧ (i 0 : Nat) < (50 * ((i 0).val / 3200) + 49) / 50 * 3200 + 3200
    omega
  | ⟨1, _⟩ =>
    show win2_2.index ⟨50 * ((i 0).val / 3200) + 49, hlt⟩ (1 : Fin 2) * 64 ≤ (i 1 : Nat)
      ∧ (i 1 : Nat) < win2_2.index ⟨50 * ((i 0).val / 3200) + 49, hlt⟩ (1 : Fin 2) * 64 + 64
    rw [e5]
    omega

end Cert.KernelIdeal.GatherRegion

namespace Cert.KernelIdeal.Regions

open Idealize.ShloMosaic Idealize.ShloMosaic.TcCoe Cert.KernelIdeal Cert.KernelIdeal.Gen

variable (V : (c : Dev nD) → (b : Ref sig .tc) → Buf (Elt Ideal) ((c : Thread nD τ).loc b))

/-- After the region the output array holds the row lookup of the index words in the table, whatever the region found. -/
theorem arr2 (c : Dev nD) :
    (dat2 (F := Ideal) V c).arrAt 2 cfg2.N = Cert.Spec.pick 12800 100000 64 (V c main_v96) (V c main_v95) :=
  (dat2 (F := Ideal) V c).arrAt_eq_of_cover 2 (Cert.Spec.pick 12800 100000 64 (V c main_v96) (V c main_v95))
    (Cert.KernelIdeal.GatherRegion.flushed_eq V c) Cert.KernelIdeal.GatherRegion.cover

end Cert.KernelIdeal.Regions

end
-- ==== Proof.OutEq.lean ====
import proofs.«411832_j70755291234320_1_alg».proof.KernelIdeal
import proofs.«411832_j70755291234320_1_alg».proof.Proof.RefReads
import proofs.«411832_j70755291234320_1_alg».proof.Proof.Spec
import Idealize.ShloMosaic.Lib.Pipeline.Value

noncomputable section

namespace Cert.Bridge

open Idealize.ShloMosaic Idealize.ShloMosaic.ValueIdx

/-- The kernel's last steps against the reference's: the index array flattened to a column, each index word's row of
    the table picked, the rows laid back out as [64, 200, 64] — under the range fact this is the reference's gather. -/
theorem out_eq (tbl : FVec Ideal Cert.KernelIdeal.S100000x64 .f32) (inp : IVec Cert.KernelIdeal.S64x200 32)
    (h1 : Cert.KernelIdeal.S64x200.ShapeCasts Cert.KernelIdeal.S12800x1)
    (h2 : Cert.KernelIdeal.S12800x64.ShapeCasts Cert.KernelIdeal.S64x200x64)
    (hin : ∀ y, 0 ≤ (inp y).toInt ∧ (inp y).toInt < 100000) :
    shapeCast Cert.KernelIdeal.S64x200x64
        (Cert.Spec.pick 12800 100000 64 (shapeCast Cert.KernelIdeal.S12800x1 inp h1) tbl) h2
      = Cert.ReferenceIdeal.Reads.tail tbl inp := by
  funext i
  obtain ⟨b, l, d, rfl⟩ : ∃ (b : Fin 64) (l : Fin 200) (d : Fin 64), i = ix3 b l d := ⟨i 0, i 1, i 2, eq_ix3 i⟩
  -- a word in [0, 100000) signed is below 100000 unsigned
  have hlt : (inp (ix2 b l)).toNat < 100000 := by
    obtain ⟨h0, h1⟩ := hin (ix2 b l)
    have hb := (inp (ix2 b l)).isLt
    rw [BitVec.toInt_eq_toNat_cond] at h0 h1
    split_ifs at h0 h1 with hc <;> omega
  refine Eq.trans ?_ (Cert.ReferenceIdeal.Reads.tail_apply tbl inp hin b l d hlt).symm
  -- position (b, l, d) of [64, 200, 64] is row b * 200 + l, column d of [12800, 64]
  have hr : b.val * 200 + l.val < 12800 := by have := b.isLt; have := l.isLt; omega
  rw [shapeCast_apply _ h2 (ix3 b l d) (ix2 (⟨b.val * 200 + l.val, hr⟩ : Fin 12800) d) (by
    rw [Shape.rowMajor_val_two, Shape.rowMajor_val_three]; rfl)]
  -- row b * 200 + l of the column [12800, 1] is position (b, l) of [64, 200]
  have hidx : shapeCast Cert.KernelIdeal.S12800x1 inp h1 (ix2 (⟨b.val * 200 + l.val, hr⟩ : Fin 12800) (0 : Fin 1))
      = inp (ix2 b l) :=
    shapeCast_apply inp h1 _ (ix2 b l) (by
      rw [Shape.rowMajor_val_two, Shape.rowMajor_val_two]
      show b.val * 200 + l.val = (b.val * 200 + l.val) * 1 + 0
      omega)
  have key : ∀ (w : BitVec 32), w = inp (ix2 b l) →
      (if h : w.toNat < 100000 then tbl (ix2 (⟨w.toNat, h⟩ : Fin 100000) d) else 0)
        = tbl (ix2 (⟨(inp (ix2 b l)).toNat, hlt⟩ : Fin 100000) d) := by
    intro w hw; subst hw; rw [dif_pos hlt]
  exact key _ hidx

end Cert.Bridge

end
-- ==== Proof.BridgeOut.lean ====
import proofs.«411832_j70755291234320_1_alg».proof.Proof.BridgeLayers
import proofs.«411832_j70755291234320_1_alg».proof.Proof.GatherRegion
import proofs.«411832_j70755291234320_1_alg».proof.Proof.OutEq
import proofs.«411832_j70755291234320_1_alg».proof.Proof.Gen.Pre_finite_inputs
import proofs.«411832_j70755291234320_1_alg».proof.Defs

/-!
# The lookup

The kernel program flattens the index array to a column, its last launch picks for each index word the row of the
table it names (by a sum of rows times indicators), and the rows are laid back out as [64, 200, 64]. The reference
normalises negative indices, broadcasts and gathers. Under the range fact of the precondition, every index being a row
number of the table, the two are one function of the table and the index array; the tables agree by the two layers.
-/

set_option maxRecDepth 16384

noncomputable section

namespace Cert.Bridge

open Idealize.ShloMosaic Idealize.ShloMosaic.StableHlo Idealize.ShloMosaic.TcCoe
open Cert.KernelIdeal.Gen (W0 W1 W4 W5 W7 W8 W9 W10 V8 dat2)

section Ops

variable {F : FTy → Type} [FloatOps F]

section K
open Cert.KernelIdeal Cert.KernelIdeal.Gen
/-- The index array flattened to a column. -/
abbrev flattenOp : HloOp Topo.v7x Cert.KernelIdeal.sig (Elt F) := StableHlo.reshape main_arg0 main_v96 rfl shapeCasts_S64x200_S12800x1
/-- The picked rows laid out as the result. -/
abbrev unflattenOp : HloOp Topo.v7x Cert.KernelIdeal.sig (Elt F) := StableHlo.reshape main_v97 main_v98 rfl shapeCasts_S12800x64_S64x200x64
theorem drop38 : List.drop 38 (hostOps2_2 (F := F)) = [flattenOp] := rfl
theorem hostOps3_eq : (hostOps3 (F := F)) = [unflattenOp] := rfl
end K

section R
open Cert.ReferenceIdeal Cert.ReferenceIdeal.Gen
/-- The reference's lookup: its last nine operations. -/
abbrev tailOps : List (HloOp Topo.v7x Cert.ReferenceIdeal.sig (Elt F)) :=
  [
    nullary main_c_22 (constantI S_ 32 0#32),
    unary main_c_22 main_v96 (broadcastInDim S64x200 ![] bcast_S_S64x200 : (⟨S_, .i32⟩ : BufTy).Contents (Elt F) → (⟨S64x200, .i32⟩ : BufTy).Contents (Elt F)),
    binary main_arg0 main_v96 main_v97 (cmpi .slt : (⟨S64x200, .i32⟩ : BufTy).Contents (Elt F) → (⟨S64x200, .i32⟩ : BufTy).Contents (Elt F) → (⟨S64x200, .i1⟩ : BufTy).Contents (Elt F)),
    nullary main_c_23 (constantI S_ 32 100000#32),
    unary main_c_23 main_v98 (broadcastInDim S64x200 ![] bcast_S_S64x200 : (⟨S_, .i32⟩ : BufTy).Contents (Elt F) → (⟨S64x200, .i32⟩ : BufTy).Contents (Elt F)),
    binary main_arg0 main_v98 main_v99 (addi : (⟨S64x200, .i32⟩ : BufTy).Contents (Elt F) → (⟨S64x200, .i32⟩ : BufTy).Contents (Elt F) → (⟨S64x200, .i32⟩ : BufTy).Contents (Elt F)),
    ternary main_v97 main_v99 main_arg0 main_v100 (select : (⟨S64x200, .i1⟩ : BufTy).Contents (Elt F) → (⟨S64x200, .i32⟩ : BufTy).Contents (Elt F) → (⟨S64x200, .i32⟩ : BufTy).Contents (Elt F) → (⟨S64x200, .i32⟩ : BufTy).Contents (Elt F)),
    unary main_v100 main_v101 (broadcastInDim S64x200x1 ![0, 1] bcast_S64x200_S64x200x1_0_1 : (⟨S64x200, .i32⟩ : BufTy).Contents (Elt F) → (⟨S64x200x1, .i32⟩ : BufTy).Contents (Elt F)),
    binary main_v95 main_v101 main_v102 ((fun x i => Host.gather gather_S100000x64_S64x200x1_S64x200x64_2_0_n_n_0_2_164 x i) : (⟨S100000x64, .f32⟩ : BufTy).Contents (Elt F) → (⟨S64x200x1, .i32⟩ : BufTy).Contents (Elt F) → (⟨S64x200x64, .f32⟩ : BufTy).Contents (Elt F)) ]
theorem drop124 : List.drop 124 (refOps (F := F)) = tailOps := rfl
end R

end Ops

/-- What the reference's lookup leaves in the result buffer, as one function of the table and the index array. -/
theorem tail_val (M : Valuation Topo.v7x Cert.ReferenceIdeal.sig (Elt Ideal)) :
    after (tailOps (F := Ideal)) M (Proc.devRef .tc Cert.ReferenceIdeal.main_v102)
      = Cert.ReferenceIdeal.Reads.tail (M (Proc.devRef .tc Cert.ReferenceIdeal.main_v95)) (M (Proc.devRef .tc Cert.ReferenceIdeal.main_arg0)) := by
  after_results
  rfl

variable (m : (ℓ : Loc Cert.KernelIdeal.nD Cert.KernelIdeal.τ Cert.KernelIdeal.sig) → Buf (Elt Ideal) ℓ) (ρ : Dev Cert.KernelIdeal.nD → PrngReg)

/-- The index array is as launched when the last launch begins. -/
theorem W8_arg0 (c : Dev Cert.KernelIdeal.nD) : W8 m ρ c (Proc.devRef .tc Cert.KernelIdeal.main_arg0) = m ((c : Thread Cert.KernelIdeal.nD Cert.KernelIdeal.τ).loc Cert.KernelIdeal.main_arg0) := by
  have e10 : W10 m ρ c (Proc.devRef .tc Cert.KernelIdeal.main_arg0) = W9 m ρ c (Proc.devRef .tc Cert.KernelIdeal.main_arg0) := by
    show (unflattenOp (F := Ideal)).result (W9 m ρ c) (Proc.devRef .tc Cert.KernelIdeal.main_arg0) = _
    exact reshape_result_ne Cert.KernelIdeal.main_v97 Cert.KernelIdeal.main_v98 _ _ _ _ (W9 m ρ c) (by decide)
  exact (Cert.KernelIdeal.Gen.W9_of_ne m ρ c Cert.KernelIdeal.main_arg0 (by decide)).symm.trans (e10.symm.trans (Cert.KernelIdeal.Gen.W10_main_arg0 m ρ c))

theorem W8_eq (c : Dev Cert.KernelIdeal.nD) :
    W8 m ρ c = after (List.drop 38 (Cert.KernelIdeal.Gen.hostOps2_2 (F := Ideal))) (after (List.take 38 (Cert.KernelIdeal.Gen.hostOps2_2 (F := Ideal))) (W7 m ρ c)) := by
  exact (congrArg (fun l => after l (W7 m ρ c)) (List.take_append_drop 38 (Cert.KernelIdeal.Gen.hostOps2_2 (F := Ideal))).symm).trans (after_append _ _ _)

/-- The column the last launch reads is the flattened index array. -/
theorem W8_v96 (c : Dev Cert.KernelIdeal.nD) :
    W8 m ρ c (Proc.devRef .tc Cert.KernelIdeal.main_v96) = shapeCast Cert.KernelIdeal.S12800x1 (W8 m ρ c (Proc.devRef .tc Cert.KernelIdeal.main_arg0)) Cert.KernelIdeal.Gen.shapeCasts_S64x200_S12800x1 := by
  have e := W8_eq m ρ c
  rw [drop38] at e
  rw [e]
  show (flattenOp (F := Ideal)).result _ (Proc.devRef .tc Cert.KernelIdeal.main_v96) = shapeCast _ ((flattenOp (F := Ideal)).result _ (Proc.devRef .tc Cert.KernelIdeal.main_arg0)) _
  rw [reshape_result_ne Cert.KernelIdeal.main_arg0 Cert.KernelIdeal.main_v96 _ _ _ _ _ (r := Cert.KernelIdeal.main_arg0) (by decide)]
  exact reshape_result Cert.KernelIdeal.main_arg0 Cert.KernelIdeal.main_v96 rfl Cert.KernelIdeal.Gen.shapeCasts_S64x200_S12800x1 _ _ _

/-- The result buffer at the return: the picked rows of the table at the last launch's entry, laid out. -/
theorem W10_v98 (c : Dev Cert.KernelIdeal.nD) :
    W10 m ρ c (Proc.devRef .tc Cert.KernelIdeal.main_v98)
      = shapeCast Cert.KernelIdeal.S64x200x64
          (Cert.Spec.pick 12800 100000 64 (shapeCast Cert.KernelIdeal.S12800x1 (W8 m ρ c (Proc.devRef .tc Cert.KernelIdeal.main_arg0)) Cert.KernelIdeal.Gen.shapeCasts_S64x200_S12800x1)
            (W8 m ρ c (Proc.devRef .tc Cert.KernelIdeal.main_v95))) Cert.KernelIdeal.Gen.shapeCasts_S12800x64_S64x200x64 := by
  have e9 : W9 m ρ c (Proc.devRef .tc Cert.KernelIdeal.main_v97)
      = Cert.Spec.pick 12800 100000 64 (W8 m ρ c (Proc.devRef .tc Cert.KernelIdeal.main_v96)) (W8 m ρ c (Proc.devRef .tc Cert.KernelIdeal.main_v95)) :=
    (Cert.KernelIdeal.Gen.W9_arr m ρ c 2).trans (Cert.KernelIdeal.Regions.arr2 (V8 m ρ) c)
  rw [← W8_v96 m ρ c, ← e9]
  show (unflattenOp (F := Ideal)).result (W9 m ρ c) (Proc.devRef .tc Cert.KernelIdeal.main_v98) = _
  exact reshape_result Cert.KernelIdeal.main_v97 Cert.KernelIdeal.main_v98 rfl Cert.KernelIdeal.Gen.shapeCasts_S12800x64_S64x200x64 _ _ (W9 m ρ c)

/-- THE RESULTS AGREE: the kernel program's result buffer at its return holds what the reference's line of operations
    leaves in the reference's result buffer, from memories agreeing on the arguments, the index array in range. -/
theorem result_eq (c : Dev Cert.KernelIdeal.nD) (m' : (ℓ : Loc Cert.ReferenceIdeal.nD Cert.ReferenceIdeal.τ Cert.ReferenceIdeal.sig) → Buf (Elt Ideal) ℓ)
    (hpre : Cert.Pre_KernelIdeal m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    after (refOps (F := Ideal)) (launchContents m' c) (Proc.devRef .tc Cert.ReferenceIdeal.main_v102) = W10 m ρ c (Proc.devRef .tc Cert.KernelIdeal.main_v98) := by
  -- agreement on the arguments at the first launch's exit
  have hs : Agree args (W1 m ρ c) (launchContents m' c) := by
    refine Agree.cons ?_ (Agree.cons ?_ (Agree.cons ?_ (Agree.cons ?_ (Agree.cons ?_ (Agree.cons ?_ (Agree.cons ?_ Agree.nil))))))
    · exact heq_of_eq ((Cert.KernelIdeal.Gen.W1_of_ne m ρ c Cert.KernelIdeal.main_arg0 (by decide)).trans h0.symm)
    · exact heq_of_eq ((W1_arg1 m ρ c).trans h1.symm)
    · exact heq_of_eq ((W1_arg2 m ρ c).trans h2.symm)
    · exact heq_of_eq ((Cert.KernelIdeal.Gen.W1_of_ne m ρ c Cert.KernelIdeal.main_arg3 (by decide)).trans h3.symm)
    · exact heq_of_eq ((Cert.KernelIdeal.Gen.W1_of_ne m ρ c Cert.KernelIdeal.main_arg4 (by decide)).trans h4.symm)
    · exact heq_of_eq ((Cert.KernelIdeal.Gen.W1_of_ne m ρ c Cert.KernelIdeal.main_arg5 (by decide)).trans h5.symm)
    · exact heq_of_eq ((Cert.KernelIdeal.Gen.W1_of_ne m ρ c Cert.KernelIdeal.main_arg6 (by decide)).trans h6.symm)
  obtain ⟨M1, hL1, e1⟩ := after_layer1 m ρ c _ hs
  obtain ⟨M2, hL2, e2⟩ := after_layer2 m ρ c _ (agree_W5 m ρ c _ hL1)
  -- the index array is in range
  have hin : ∀ y, 0 ≤ ((W8 m ρ c (Proc.devRef .tc Cert.KernelIdeal.main_arg0)) y).toInt ∧ ((W8 m ρ c (Proc.devRef .tc Cert.KernelIdeal.main_arg0)) y).toInt < 100000 := by
    rw [W8_arg0 m ρ c]
    exact Cert.ReferenceIdeal.Reads.range_of_pre _ _ _ _ _ _ _ (hpre c)
  rw [e1, e2, drop124, tail_val, W10_v98 m ρ c, Cert.Bridge.out_eq _ _ _ _ hin,
    eq_of_heq (hL2.get (a := Cert.KernelIdeal.main_v95) (a' := Cert.ReferenceIdeal.main_v95) (by decide)),
    eq_of_heq (hL2.get (a := Cert.KernelIdeal.main_arg0) (a' := Cert.ReferenceIdeal.main_arg0) (by decide))]

end Cert.Bridge

end
-- ==== Proof.RefSide.lean ====
import proofs.«411832_j70755291234320_1_alg».proof.Proof.BridgeOut

/-!
# The reference's run

Every weakly fair execution of the reference terminates, and each of its buffers ends at the fold of its line of
operations over the launch contents. No operation of the line writes an argument array, so the arguments end as
launched; the result buffer ends at the fold's value there, which is what the kernel program's result buffer holds.
-/

set_option maxRecDepth 16384

noncomputable section

namespace Cert.Bridge

open Idealize.ShloMosaic Idealize.ShloMosaic.StableHlo Idealize.ShloMosaic.TcCoe Idealize.SL.Sem

/-- The reference's argument arrays. -/
abbrev refArgs : List (Ref Cert.ReferenceIdeal.sig .tc) :=
  [Cert.ReferenceIdeal.main_arg0, Cert.ReferenceIdeal.main_arg1, Cert.ReferenceIdeal.main_arg2, Cert.ReferenceIdeal.main_arg3, Cert.ReferenceIdeal.main_arg4, Cert.ReferenceIdeal.main_arg5, Cert.ReferenceIdeal.main_arg6]

set_option maxHeartbeats 1000000 in
theorem refKeeps {F : FTy → Type} [FloatOps F] : Keeps (τ := Topo.v7x) refArgs (refOps (F := F)) := by
  repeat keeps_step
  exact Keeps.nil

/-- The reference's run: every buffer at the fold of the operations over the launch contents. -/
theorem refRun (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r =>
      ∀ (d : Dev Cert.ReferenceIdeal.nD) (b : Ref Cert.ReferenceIdeal.sig .tc),
        r.2.mem ((d.tc : Thread Cert.ReferenceIdeal.nD Cert.ReferenceIdeal.τ).loc b) = after (refOps (F := Ideal)) (launchContents m d) (Proc.devRef .tc b) :=
  run_seq Cert.ReferenceIdeal.ValueP.scopedRefs_eq Cert.ReferenceIdeal.ValueP.scopedSems_eq Cert.ReferenceIdeal.defs Cert.ReferenceIdeal.main (fun _ => Cert.ReferenceIdeal.ValueP.ops) Cert.ReferenceIdeal.ValueP.main_eq
    (fun _ => Cert.ReferenceIdeal.ValueP.ops_sub) m ρ

/-- An argument array after the reference's line is as launched. -/
theorem refArg_kept (m : (ℓ : Loc Cert.ReferenceIdeal.nD Cert.ReferenceIdeal.τ Cert.ReferenceIdeal.sig) → Buf (Elt Ideal) ℓ) (d : Dev Cert.ReferenceIdeal.nD) {b : Ref Cert.ReferenceIdeal.sig .tc} (hb : b ∈ refArgs) :
    after (refOps (F := Ideal)) (launchContents m d) (Proc.devRef .tc b) = m ((d.tc : Thread Cert.ReferenceIdeal.nD Cert.ReferenceIdeal.τ).loc b) :=
  refKeeps.after_eq hb _

end Cert.Bridge

end
-- ==== Proof.lean ====
/-
  A two-layer graph convolution followed by a row lookup, as three launches among host operations, against the same
  computation written with two host matrix products and a gather — equal as functions of the arguments on the extended
  reals, for index arrays whose entries are row numbers of the table.

  Each layer is a matrix product followed by the mixing of rows along the edges of the graph. The products are sums
  over the inner axis in both programs (a change of float format is the identity on the extended reals, and the order
  and tiling of a sum do not matter there). The mixing is the same list of host operations in both programs, applied
  to equal arrays. The lookup is a gather in the reference; the kernel program computes it as a sum over all rows of
  the table of the row times the indicator that the index names it, which is the named row when the index is a row
  number — this is where the range of the indices is used, and the only place: for an index outside the table the
  indicator sum is zero while a gather clamps.

  The three frames: the two kernel programs' are the launch over their segments; the reference's is its run as a
  line of host operations, none of which writes an argument.
-/
import proofs.«411832_j70755291234320_1_alg».proof.Defs
import proofs.«411832_j70755291234320_1_alg».proof.Proof.Gen.Kernel
import proofs.«411832_j70755291234320_1_alg».proof.Proof.Gen.Kernel.Skeleton
import proofs.«411832_j70755291234320_1_alg».proof.Proof.Gen.Kernel.Launch
import proofs.«411832_j70755291234320_1_alg».proof.Proof.Gen.Kernel.Points
import proofs.«411832_j70755291234320_1_alg».proof.Proof.Gen.Kernel.Frame
import proofs.«411832_j70755291234320_1_alg».proof.Proof.Gen.KernelIdeal
import proofs.«411832_j70755291234320_1_alg».proof.Proof.Gen.KernelIdeal.Skeleton
import proofs.«411832_j70755291234320_1_alg».proof.Proof.Gen.KernelIdeal.Launch
import proofs.«411832_j70755291234320_1_alg».proof.Proof.Gen.KernelIdeal.Points
import proofs.«411832_j70755291234320_1_alg».proof.Proof.Gen.KernelIdeal.Frame
import proofs.«411832_j70755291234320_1_alg».proof.Proof.Gen.ReferenceIdeal
import proofs.«411832_j70755291234320_1_alg».proof.Proof.Gen.Pre_finite_inputs
import proofs.«411832_j70755291234320_1_alg».proof.Proof.RunMain
import proofs.«411832_j70755291234320_1_alg».proof.Proof.RefSide
import Idealize.ShloMosaic.Adequacy
import Idealize.ShloMosaic.Init

noncomputable section

namespace Cert.Proof

open Idealize.ShloMosaic Idealize.ShloMosaic.StableHlo Idealize.ShloMosaic.TcCoe Idealize.SL.Sem

/-- The reference runs, and its argument arrays end as launched. -/
theorem frame_ri : Cert.frame_ReferenceIdeal := fun m ρ _ =>
  (θ_run Cert.ReferenceIdeal.defs _ _).mono
    (fun r h c => ⟨(h c _).trans (Cert.Bridge.refArg_kept m c (by decide)), (h c _).trans (Cert.Bridge.refArg_kept m c (by decide)),
      (h c _).trans (Cert.Bridge.refArg_kept m c (by decide)), (h c _).trans (Cert.Bridge.refArg_kept m c (by decide)),
      (h c _).trans (Cert.Bridge.refArg_kept m c (by decide)), (h c _).trans (Cert.Bridge.refArg_kept m c (by decide)),
      (h c _).trans (Cert.Bridge.refArg_kept m c (by decide))⟩)
    (Cert.Bridge.refRun m ρ)

/-- Both idealized programs run from memories agreeing on the arguments, and end with equal results: the kernel
    program's result buffer holds the last boundary's contents, the reference's the fold of its line, and the two are
    equal by the layers and the lookup. -/
theorem algebraic : Cert.algebraic_KernelIdeal_ReferenceIdeal := by
  intro m ρ m' ρ' hpre hagree
  refine ⟨fun c => Cert.KernelIdeal.Gen.W10 m ρ c (Proc.devRef .tc Cert.KernelIdeal.main_v98), Cert.KernelIdeal.GenRun.run_main m ρ, ?_⟩
  refine (θ_run Cert.ReferenceIdeal.defs _ _).mono (fun r h c => ⟨?_, ?_⟩) (Cert.Bridge.refRun m' ρ')
  · exact (h c _).trans (Cert.Bridge.result_eq m ρ c m' hpre (hagree c).1 (hagree c).2.1 (hagree c).2.2.1 (hagree c).2.2.2.1
      (hagree c).2.2.2.2.1 (hagree c).2.2.2.2.2.1 (hagree c).2.2.2.2.2.2)
  · exact ⟨(h c _).trans (Cert.Bridge.refArg_kept m' c (by decide)), (h c _).trans (Cert.Bridge.refArg_kept m' c (by decide)),
      (h c _).trans (Cert.Bridge.refArg_kept m' c (by decide)), (h c _).trans (Cert.Bridge.refArg_kept m' c (by decide)),
      (h c _).trans (Cert.Bridge.refArg_kept m' c (by decide)), (h c _).trans (Cert.Bridge.refArg_kept m' c (by decide)),
      (h c _).trans (Cert.Bridge.refArg_kept m' c (by decide))⟩

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ri,
  trivial,
  algebraic⟩

end Cert.Proof

end
